-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x3x128 : Shape := ⟨3, ![16384, 3, 128]⟩
abbrev S2x400000 : Shape := ⟨2, ![2, 400000]⟩
abbrev S400000x20 : Shape := ⟨2, ![400000, 20]⟩
abbrev S400000x3 : Shape := ⟨2, ![400000, 3]⟩
abbrev S20x128 : Shape := ⟨2, ![20, 128]⟩
abbrev S128 : Shape := ⟨1, ![128]⟩
abbrev S128x384 : Shape := ⟨2, ![128, 384]⟩
abbrev S384 : Shape := ⟨1, ![384]⟩
abbrev S128x128 : Shape := ⟨2, ![128, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x3x128 : S_.BroadcastsInDim S16384x3x128 (![] : Fin 0 → Fin S16384x3x128.rank)
  reducesTo_S16384x3x128_S_d0_1_2 : S16384x3x128.ReducesTo [0, 1, 2] S_
  bcast_S_S400000x20 : S_.BroadcastsInDim S400000x20 (![] : Fin 0 → Fin S400000x20.rank)
  reducesTo_S400000x20_S_d0_1 : S400000x20.ReducesTo [0, 1] S_
  bcast_S_S400000x3 : S_.BroadcastsInDim S400000x3 (![] : Fin 0 → Fin S400000x3.rank)
  reducesTo_S400000x3_S_d0_1 : S400000x3.ReducesTo [0, 1] S_
  bcast_S_S20x128 : S_.BroadcastsInDim S20x128 (![] : Fin 0 → Fin S20x128.rank)
  reducesTo_S20x128_S_d0_1 : S20x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg12 : FVec F S384 .f32) (main_v48 : IVec S_ 1) (main_v49 : FVec F S128x384 .f32) (main_v50 : FVec F S128x384 .f32) : IVec S_ 1 :=
  let main_v51 : IVec S128x384 1 := cmpf .olt main_v49 main_v50
  let main_c_19 : IVec S_ 1 := constantI S_ 1 1#1
  let main_v52 : IVec S_ 1 := (fun x v => Host.reduce IntOp.andi x v reducesTo_S128x384_S_d0_1 h_S_) main_v51 main_c_19
  let main_v53 : IVec S_ 1 := andi main_v48 main_v52
  let main_v54 : FVec F S384 .f32 := Host.absf main_arg12
  let main_cst_20 : FVec F S_ .f32 := constant S_ .f32 0x7F800000#32
  let main_v55 : FVec F S384 .f32 := broadcastInDim S384 ![] bcast_S_S384 main_cst_20
  let main_v56 : IVec S384 1 := cmpf .olt main_v54 main_v55
  let main_c_21 : IVec S_ 1 := constantI S_ 1 1#1
  let main_v57 : IVec S_ 1 := (fun x v => Host.reduce IntOp.andi x v reducesTo_S384_S_d0 h_S_) main_v56 main_c_21
  let main_v58 : IVec S_ 1 := andi main_v53 main_v57
  main_v58

def fn_part2 {F : FTy → Type} [FloatOps F] (main_arg8 : FVec F S384 .f32) (main_arg9 : FVec F S128x128 .f32) (main_arg10 : FVec F S128 .f32) (main_arg11 : FVec F S128x384 .f32) (main_arg12 : FVec F S384 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x384 .f32 := Host.absf main_arg11
  let main_cst_18 : FVec F S_ .f32 := constant S_ .f32 0x7F800000#32
  let main_v50 : FVec F S128x384 .f32 := broadcastInDim S128x384 ![] bcast_S_S128x384 main_cst_18
  fn_part3 (F := F) main_arg12 main_v48 main_v49 main_v50

def fn_part1 {F : FTy → Type} [FloatOps F] (main_arg5 : FVec F S20x128 .f32) (main_arg6 : FVec F S128 .f32) (main_arg7 : FVec F S128x384 .f32) (main_arg8 : FVec F S384 .f32) (main_arg9 : FVec F S128x128 .f32) (main_arg10 : FVec F S128 .f32) (main_arg11 : FVec F S128x384 .f32) (main_arg12 : FVec F S384 .f32) (main_v13 : IVec S_ 1) (main_v16 : IVec S400000x3 1) : IVec S_ 1 :=
  let main_c_5 : IVec S_ 1 := constantI S_ 1 1#1
  let main_v17 : IVec S_ 1 := (fun x v => Host.reduce IntOp.andi x v reducesTo_S400000x3_S_d0_1 h_S_) main_v16 main_c_5
  let main_v18 : IVec S_ 1 := andi main_v13 main_v17
  let main_v19 : FVec F S20x128 .f32 := Host.absf main_arg5
  let main_cst_6 : FVec F S_ .f32 := constant S_ .f32 0x7F800000#32
  let main_v20 : FVec F S20x128 .f32 := broadcastInDim S20x128 ![] bcast_S_S20x128 main_cst_6
  let main_v21 : IVec S20x128 1 := cmpf .olt main_v19 main_v20
  let main_c_7 : IVec S_ 1 := constantI S_ 1 1#1
  let main_v22 : IVec S_ 1 := (fun x v => Host.reduce IntOp.andi x v reducesTo_S20x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x384 .f32 := Host.absf main_arg7
  let main_cst_10 : FVec F S_ .f32 := constant S_ .f32 0x7F800000#32
  let main_v30 : FVec F S128x384 .f32 := broadcastInDim S128x384 ![] bcast_S_S128x384 main_cst_10
  let main_v31 : IVec S128x384 1 := cmpf .olt main_v29 main_v30
  let main_c_11 : IVec S_ 1 := constantI S_ 1 1#1
  let main_v32 : IVec S_ 1 := (fun x v => Host.reduce IntOp.andi x v reducesTo_S128x384_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S16384x128 .f32) (main_arg1 : FVec F S16384x3x128 .f32) (main_arg2 : IVec S2x400000 32) (main_arg3 : FVec F S400000x20 .f32) (main_arg4 : FVec F S400000x3 .f32) (main_arg5 : FVec F S20x128 .f32) (main_arg6 : FVec F S128 .f32) (main_arg7 : FVec F S128x384 .f32) (main_arg8 : FVec F S384 .f32) (main_arg9 : FVec F S128x128 .f32) (main_arg10 : FVec F S128 .f32) (main_arg11 : FVec F S128x384 .f32) (main_arg12 : FVec F S384 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x3x128 .f32 := Host.absf main_arg1
  let main_cst_0 : FVec F S_ .f32 := constant S_ .f32 0x7F800000#32
  let main_v5 : FVec F S16384x3x128 .f32 := broadcastInDim S16384x3x128 ![] bcast_S_S16384x3x128 main_cst_0
  let main_v6 : IVec S16384x3x128 1 := cmpf .olt main_v4 main_v5
  let main_c_1 : IVec S_ 1 := constantI S_ 1 1#1
  let main_v7 : IVec S_ 1 := (fun x v => Host.reduce IntOp.andi x v reducesTo_S16384x3x128_S_d0_1_2 h_S_) main_v6 main_c_1
  let main_v8 : IVec S_ 1 := andi main_v3 main_v7
  let main_v9 : FVec F S400000x20 .f32 := Host.absf main_arg3
  let main_cst_2 : FVec F S_ .f32 := constant S_ .f32 0x7F800000#32
  let main_v10 : FVec F S400000x20 .f32 := broadcastInDim S400000x20 ![] bcast_S_S400000x20 main_cst_2
  let main_v11 : IVec S400000x20 1 := cmpf .olt main_v9 main_v10
  let main_c_3 : IVec S_ 1 := constantI S_ 1 1#1
  let main_v12 : IVec S_ 1 := (fun x v => Host.reduce IntOp.andi x v reducesTo_S400000x20_S_d0_1 h_S_) main_v11 main_c_3
  let main_v13 : IVec S_ 1 := andi main_v8 main_v12
  let main_v14 : FVec F S400000x3 .f32 := Host.absf main_arg4
  let main_cst_4 : FVec F S_ .f32 := constant S_ .f32 0x7F800000#32
  let main_v15 : FVec F S400000x3 .f32 := broadcastInDim S400000x3 ![] bcast_S_S400000x3 main_cst_4
  let main_v16 : IVec S400000x3 1 := cmpf .olt main_v14 main_v15
  fn_part1 (F := F) main_arg5 main_arg6 main_arg7 main_arg8 main_arg9 main_arg10 main_arg11 main_arg12 main_v13 main_v16
-- ==== Kernel.lean ====
abbrev S16384x128 : Shape := ⟨2, ![16384, 128]⟩
abbrev S16384x3x128 : Shape := ⟨3, ![16384, 3, 128]⟩
abbrev S2x400000 : Shape := ⟨2, ![2, 400000]⟩
abbrev S400000x20 : Shape := ⟨2, ![400000, 20]⟩
abbrev S400000x3 : Shape := ⟨2, ![400000, 3]⟩
abbrev S20x128 : Shape := ⟨2, ![20, 128]⟩
abbrev S128 : Shape := ⟨1, ![128]⟩
abbrev S128x384 : Shape := ⟨2, ![128, 384]⟩
abbrev S384 : Shape := ⟨1, ![384]⟩
abbrev S128x128 : Shape := ⟨2, ![128, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S400000x3x128 : Shape := ⟨3, ![400000, 3, 128]⟩
abbrev S400384x20 : Shape := ⟨2, ![400384, 20]⟩
abbrev S400384x128 : Shape := ⟨2, ![400384, 128]⟩
abbrev S400384x3x128 : Shape := ⟨3, ![400384, 3, 128]⟩
abbrev S400384x3 : Shape := ⟨2, ![400384, 3]⟩
abbrev S1x128 : Shape := ⟨2, ![1, 128]⟩
abbrev S1x384 : Shape := ⟨2, ![1, 384]⟩
abbrev S512x20 : Shape := ⟨2, ![512, 20]⟩
abbrev S512x128 : Shape := ⟨2, ![512, 128]⟩
abbrev S512x3x128 : Shape := ⟨3, ![512, 3, 128]⟩
abbrev S512x3 : Shape := ⟨2, ![512, 3]⟩
abbrev S512x384 : Shape := ⟨2, ![512, 384]⟩
abbrev S512x1x128 : Shape := ⟨3, ![512, 1, 128]⟩
abbrev S512x3x1 : Shape := ⟨3, ![512, 3, 1]⟩

abbrev nBuf : Space → Nat
  | .hbm => 65
  | .vmem => 20
  | .smem => 0
  | _ => 0

abbrev bufTy : (tb : Table) → Fin (tcTables nBuf tb) → BufTy
  | .hbm, ⟨0, _⟩ => ⟨S16384x128, .f32⟩
  | .hbm, ⟨1, _⟩ => ⟨S16384x3x128, .f32⟩
  | .hbm, ⟨2, _⟩ => ⟨S2x400000, .i32⟩
  | .hbm, ⟨3, _⟩ => ⟨S400000x20, .f32⟩
  | .hbm, ⟨4, _⟩ => ⟨S400000x3, .f32⟩
  | .hbm, ⟨5, _⟩ => ⟨S20x128, .f32⟩
  | .hbm, ⟨6, _⟩ => ⟨S128, .f32⟩
  | .hbm, ⟨7, _⟩ => ⟨S128x384, .f32⟩
  | .hbm, ⟨8, _⟩ => ⟨S384, .f32⟩
  | .hbm, ⟨9, _⟩ => ⟨S128x128, .f32⟩
  | .hbm, ⟨10, _⟩ => ⟨S128, .f32⟩
  | .hbm, ⟨11, _⟩ => ⟨S128x384, .f32⟩
  | .hbm, ⟨12, _⟩ => ⟨S384, .f32⟩
  | .hbm, ⟨13, _⟩ => ⟨S1x400000, .i32⟩
  | .hbm, ⟨14, _⟩ => ⟨S400000, .i32⟩
  | .hbm, ⟨15, _⟩ => ⟨S1x400000, .i32⟩
  | .hbm, ⟨16, _⟩ => ⟨S400000, .i32⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S_, .i32⟩
  | .hbm, ⟨21, _⟩ => ⟨S400000, .i32⟩
  | .hbm, ⟨22, _⟩ => ⟨S400000, .i32⟩
  | .hbm, ⟨23, _⟩ => ⟨S400000, .i32⟩
  | .hbm, ⟨24, _⟩ => ⟨S400000x1, .i32⟩
  | .hbm, ⟨25, _⟩ => ⟨S400000x128, .f32⟩
  | .hbm, ⟨26, _⟩ => ⟨S_, .i32⟩
  | .hbm, ⟨27, _⟩ => ⟨S400000, .i32⟩
  | .hbm, ⟨28, _⟩ => ⟨S400000, .i1⟩
  | .hbm, ⟨29, _⟩ => ⟨S_, .i32⟩
  | .hbm, ⟨30, _⟩ => ⟨S400000, .i32⟩
  | .hbm, ⟨31, _⟩ => ⟨S400000, .i32⟩
  | .hbm, ⟨32, _⟩ => ⟨S400000, .i32⟩
  | .hbm, ⟨33, _⟩ => ⟨S400000x1, .i32⟩
  | .hbm, ⟨34, _⟩ => ⟨S400000x3x128, .f32⟩
  | .hbm, ⟨35, _⟩ => ⟨S_, .i32⟩
  | .hbm, ⟨36, _⟩ => ⟨S_, .f32⟩
  | .hbm, ⟨37, _⟩ => ⟨S400384x20, .f32⟩
  | .hbm, ⟨38, _⟩ => ⟨S_, .i32⟩
  | .hbm, ⟨39, _⟩ => ⟨S_, .f32⟩
  | .hbm, ⟨40, _⟩ => ⟨S400384x128, .f32⟩
  | .hbm, ⟨41, _⟩ => ⟨S_, .i32⟩
  | .hbm, ⟨42, _⟩ => ⟨S_, .f32⟩
  | .hbm, ⟨43, _⟩ => ⟨S400384x3x128, .f32⟩
  | .hbm, ⟨44, _⟩ => ⟨S_, .i32⟩
  | .hbm, ⟨45, _⟩ => ⟨S_, .f32⟩
  | .hbm, ⟨46, _⟩ => ⟨S400384x3, .f32⟩
  | .hbm, ⟨47, _⟩ => ⟨S1x128, .f32⟩
  | .hbm, ⟨48, _⟩ => ⟨S1x384, .f32⟩
  | .hbm, ⟨49, _⟩ => ⟨S1x128, .f32⟩
  | .hbm, ⟨50, _⟩ => ⟨S1x384, .f32⟩
  | .hbm, ⟨51, _⟩ => ⟨S400384x128, .f32⟩
  | .hbm, ⟨52, _⟩ => ⟨S400384x3x128, .f32⟩
  | .hbm, ⟨53, _⟩ => ⟨S400000x128, .f32⟩
  | .hbm, ⟨54, _⟩ => ⟨S400000x3x128, .f32⟩
  | .hbm, ⟨55, _⟩ => ⟨S_, .f32⟩
  | .hbm, ⟨56, _⟩ => ⟨S16384x128, .f32⟩
  | .hbm, ⟨57, _⟩ => ⟨S400000x1, .i32⟩
  | .hbm, ⟨58, _⟩ => ⟨S16384x128, .f32⟩
  | .hbm, ⟨59, _⟩ => ⟨S_, .f32⟩
  | .hbm, ⟨60, _⟩ => ⟨S16384x3x128, .f32⟩
  | .hbm, ⟨61, _⟩ => ⟨S400000x1, .i32⟩
  | .hbm, ⟨62, _⟩ => ⟨S16384x3x128, .f32⟩
  | .hbm, ⟨63, _⟩ => ⟨S16384x128, .f32⟩
  | .hbm, ⟨64, _⟩ => ⟨S16384x3x128, .f32⟩
  | .local _ .vmem, ⟨0, _⟩ => ⟨S512x20, .f32⟩
  | .local _ .vmem, ⟨1, _⟩ => ⟨S512x20, .f32⟩
  | .local _ .vmem, ⟨2, _⟩ => ⟨S512x128, .f32⟩
  | .local _ .vmem, ⟨3, _⟩ => ⟨S512x128, .f32⟩
  | .local _ .vmem, ⟨4, _⟩ => ⟨S512x3x128, .f32⟩
  | .local _ .vmem, ⟨5, _⟩ => ⟨S512x3x128, .f32⟩
  | .local _ .vmem, ⟨6, _⟩ => ⟨S512x3, .f32⟩
  | .local _ .vmem, ⟨7, _⟩ => ⟨S512x3, .f32⟩
  | .local _ .vmem, ⟨8, _⟩ => ⟨S20x128, .f32⟩
  | .local _ .vmem, ⟨9, _⟩ => ⟨S1x128, .f32⟩
  | .local _ .vmem, ⟨10, _⟩ => ⟨S128x384, .f32⟩
  | .local _ .vmem, ⟨11, _⟩ => ⟨S1x384, .f32⟩
  | .local _ .vmem, ⟨12, _⟩ => ⟨S128x128, .f32⟩
  | .local _ .vmem, ⟨13, _⟩ => ⟨S1x128, .f32⟩
  | .local _ .vmem, ⟨14, _⟩ => ⟨S128x384, .f32⟩
  | .local _ .vmem, ⟨15, _⟩ => ⟨S1x384, .f32⟩
  | .local _ .vmem, ⟨16, _⟩ => ⟨S512x128, .f32⟩
  | .local _ .vmem, ⟨17, _⟩ => ⟨S512x128, .f32⟩
  | .local _ .vmem, ⟨18, _⟩ => ⟨S512x3x128, .f32⟩
  | .local _ .vmem, ⟨19, _⟩ => ⟨S512x3x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_call0_v0 : Ref sig .tc := ⟨.hbm, 36, rfl⟩
abbrev main_v18 : Ref sig .tc := ⟨.hbm, 37, rfl⟩
abbrev main_c_4 : Ref sig .tc := ⟨.hbm, 38, rfl⟩
abbrev main_call1_v0 : Ref sig .tc := ⟨.hbm, 39, rfl⟩
abbrev main_v19 : Ref sig .tc := ⟨.hbm, 40, rfl⟩
abbrev main_c_5 : Ref sig .tc := ⟨.hbm, 41, rfl⟩
abbrev main_call2_v0 : Ref sig .tc := ⟨.hbm, 42, rfl⟩
abbrev main_v20 : Ref sig .tc := ⟨.hbm, 43, rfl⟩
abbrev main_c_6 : Ref sig .tc := ⟨.hbm, 44, rfl⟩
abbrev main_call3_v0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26_0 : Ref sig .tc := ⟨.hbm, 51, rfl⟩
abbrev main_v26_1 : Ref sig .tc := ⟨.hbm, 52, rfl⟩
abbrev main_v27 : Ref sig .tc := ⟨.hbm, 53, rfl⟩
abbrev main_v28 : Ref sig .tc := ⟨.hbm, 54, rfl⟩
abbrev main_cst : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![782], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S20x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x3x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  pads_S400000x20_S400384x20_03840_000 : S400000x20.Pads (![0, 0] : Fin 2 → Nat) ![384, 0] ![0, 0] S400384x20
  h_S_ : 0 < S_.numel
  pads_S400000x128_S400384x128_03840_000 : S400000x128.Pads (![0, 0] : Fin 2 → Nat) ![384, 0] ![0, 0] S400384x128
  pads_S400000x3x128_S400384x3x128_03840_000_000 : S400000x3x128.Pads (![0, 0, 0] : Fin 3 → Nat) ![384, 0, 0] ![0, 0, 0] S400384x3x128
  pads_S400000x3_S400384x3_03840_000 : S400000x3.Pads (![0, 0] : Fin 2 → Nat) ![384, 0] ![0, 0] S400384x3
  shapeCasts_S128_S1x128 : S128.ShapeCasts S1x128
  shapeCasts_S384_S1x384 : S384.ShapeCasts S1x384
  inb_S512x20_S512x20_0_0 : ∀ a, (![0, 0] : Fin 2 → Nat) a + S512x20.size a ≤ S512x20.size a
  h_S512x20 : 0 < S512x20.numel
  shapeCasts_S512x20_S512x20 : S512x20.ShapeCasts S512x20
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x3x128_S512x3x128_0_0_0 : ∀ a, (![0, 0, 0] : Fin 3 → Nat) a + S512x3x128.size a ≤ S512x3x128.size a
  h_S512x3x128 : 0 < S512x3x128.numel
  shapeCasts_S512x3x128_S512x3x128 : S512x3x128.ShapeCasts S512x3x128
  inb_S512x3_S512x3_0_0 : ∀ a, (![0, 0] : Fin 2 → Nat) a + S512x3.size a ≤ S512x3.size a
  h_S512x3 : 0 < S512x3.numel
  shapeCasts_S512x3_S512x3 : S512x3.ShapeCasts S512x3
  inb_S20x128_S20x128_0_0 : ∀ a, (![0, 0] : Fin 2 → Nat) a + S20x128.size a ≤ S20x128.size a
  h_S20x128 : 0 < S20x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  inb_S128x128_S128x128_0_0 : ∀ a, (![0, 0] : Fin 2 → Nat) a + S128x128.size a ≤ S128x128.size a
  h_S128x128 : 0 < S128x128.numel
  broadcasts_S1x128_S512x128 : S1x128.Broadcasts S512x128
  broadcasts_S1x384_S512x384 : S1x384.Broadcasts S512x384
  slices_S512x384_o0_0_S512x128 : S512x384.Slices ![0, 0] S512x128
  slices_S512x384_o0_128_S512x128 : S512x384.Slices ![0, 128] S512x128
  slices_S512x384_o0_256_S512x128 : S512x384.Slices ![0, 256] S512x128
  shapeCasts_S512x128_S512x1x128 : S512x128.ShapeCasts S512x1x128
  broadcasts_S512x1x128_S512x3x128 : S512x1x128.Broadcasts S512x3x128
  shapeCasts_S512x3_S512x3x1 : S512x3.ShapeCasts S512x3x1
  broadcasts_S512x3x1_S512x3x128 : S512x3x1.Broadcasts S512x3x128
  slices_S400384x128_S400000x128_0_0 : S400384x128.Slices ![0, 0] S400000x128
  slices_S400384x3x128_S400000x3x128_0_0_0 : S400384x3x128.Slices ![0, 0, 0] S400000x3x128
  bcast_S_S16384x128 : S_.BroadcastsInDim S16384x128 (![] : Fin 0 → Fin S16384x128.rank)
  bcast_S_S16384x3x128 : S_.BroadcastsInDim S16384x3x128 (![] : Fin 0 → Fin S16384x3x128.rank)
  gather_S16384x128_S400000x1_S400000x128_1_0_n_n_0_1_1128_wf : GatherDims.WF S16384x128 S400000x1 S400000x128 [1] [0] [] [0] [] 1 ![1, 128]
  gather_S16384x3x128_S400000x1_S400000x3x128_12_0_n_n_0_1_13128_wf : GatherDims.WF S16384x3x128 S400000x1 S400000x3x128 [1, 2] [0] [] [0] [] 1 ![1, 3, 128]
  dot_S512x20_S20x128_S512x128_1_0_0_1_n_n_wf : DotDims.WF S512x20 S20x128 S512x128 [1] [0] [0] [1] [] []
  dot_S512x128_S128x384_S512x384_1_0_0_1_n_n_wf : DotDims.WF S512x128 S128x384 S512x384 [1] [0] [0] [1] [] []
  dot_S512x128_S128x128_S512x128_1_0_0_1_n_n_wf : DotDims.WF S512x128 S128x128 S512x128 [1] [0] [0] [1] [] []
  scatter_S16384x128_S400000x1_S400000x128_1_0_0_1_wf : ScatterDims.WF S16384x128 S400000x1 S400000x128 [1] [0] [0] 1
  scatter_S16384x3x128_S400000x1_S400000x3x128_12_0_0_1_wf : ScatterDims.WF S16384x3x128 S400000x1 S400000x3x128 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x20.size a ≤ S400384x20.size a
  hwx0_0 : ∀ i : grid0.Coords, EltTy.bits .f32 = 32 ∨ (Rect.block (s := S400384x20) S512x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S400384x128.size a
  hwx0_1 : ∀ i : grid0.Coords, EltTy.bits .f32 = 32 ∨ (Rect.block (s := S400384x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3x128.size a ≤ S400384x3x128.size a
  hwx0_2 : ∀ i : grid0.Coords, EltTy.bits .f32 = 32 ∨ (Rect.block (s := S400384x3x128) S512x3x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3.size a ≤ S400384x3.size a
  hwx0_3 : ∀ i : grid0.Coords, EltTy.bits .f32 = 32 ∨ (Rect.block (s := S400384x3) S512x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20x128.size a ≤ S20x128.size a
  hwx0_4 : ∀ i : grid0.Coords, EltTy.bits .f32 = 32 ∨ (Rect.block (s := S20x128) S20x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x384.size a ≤ S128x384.size a
  hwx0_6 : ∀ i : grid0.Coords, EltTy.bits .f32 = 32 ∨ (Rect.block (s := S128x384) S128x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x384.size a ≤ S1x384.size a
  hwx0_7 : ∀ i : grid0.Coords, EltTy.bits .f32 = 32 ∨ (Rect.block (s := S1x384) S1x384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x384.size a ≤ S128x384.size a
  hwx0_10 : ∀ i : grid0.Coords, EltTy.bits .f32 = 32 ∨ (Rect.block (s := S128x384) S128x384.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x384.size a ≤ S1x384.size a
  hwx0_11 : ∀ i : grid0.Coords, EltTy.bits .f32 = 32 ∨ (Rect.block (s := S1x384) S1x384.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x128.size a ≤ S400384x128.size a
  hwx0_12 : ∀ i : grid0.Coords, EltTy.bits .f32 = 32 ∨ (Rect.block (s := S400384x128) S512x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x3x128.size a ≤ S400384x3x128.size a
  hwx0_13 : ∀ i : grid0.Coords, EltTy.bits .f32 = 32 ∨ (Rect.block (s := S400384x3x128) S512x3x128.size (cc0_transform_13 i) (hinb0_13 i)).WholeWords (EltTy.packing .f32)

variable [Facts₀]

def gather_S16384x128_S400000x1_S400000x128_1_0_n_n_0_1_1128 : GatherDims S16384x128 S400000x1 S400000x128 where
  offsetDims := [1]
  collapsedSliceDims := [0]
  operandBatchingDims := []
  startIndicesBatchingDims := []
  startIndexMap := [0]
  indexVectorDim := 1
  sliceSizes := ![1, 128]
  wf := gather_S16384x128_S400000x1_S400000x128_1_0_n_n_0_1_1128_wf
def gather_S16384x3x128_S400000x1_S400000x3x128_12_0_n_n_0_1_13128 : GatherDims S16384x3x128 S400000x1 S400000x3x128 where
  offsetDims := [1, 2]
  collapsedSliceDims := [0]
  operandBatchingDims := []
  startIndicesBatchingDims := []
  startIndexMap := [0]
  indexVectorDim := 1
  sliceSizes := ![1, 3, 128]
  wf := gather_S16384x3x128_S400000x1_S400000x3x128_12_0_n_n_0_1_13128_wf
def dot_S512x20_S20x128_S512x128_1_0_0_1_n_n : DotDims S512x20 S20x128 S512x128 where
  lhsContracting := [1]
  rhsContracting := [0]
  lhsNonContracting := [0]
  rhsNonContracting := [1]
  lhsBatch := []
  rhsBatch := []
  wf := dot_S512x20_S20x128_S512x128_1_0_0_1_n_n_wf
def dot_S512x128_S128x384_S512x384_1_0_0_1_n_n : DotDims S512x128 S128x384 S512x384 where
  lhsContracting := [1]
  rhsContracting := [0]
  lhsNonContracting := [0]
  rhsNonContracting := [1]
  lhsBatch := []
  rhsBatch := []
  wf := dot_S512x128_S128x384_S512x384_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def scatter_S16384x128_S400000x1_S400000x128_1_0_0_1 : ScatterDims S16384x128 S400000x1 S400000x128 where
  updateWindowDims := [1]
  insertedWindowDims := [0]
  scatterDimsToOperandDims := [0]
  indexVectorDim := 1
  wf := scatter_S16384x128_S400000x1_S400000x128_1_0_0_1_wf
def scatter_S16384x3x128_S400000x1_S400000x3x128_12_0_0_1 : ScatterDims S16384x3x128 S400000x1 S400000x3x128 where
  updateWindowDims := [1, 2]
  insertedWindowDims := [0]
  scatterDimsToOperandDims := [0]
  indexVectorDim := 1
  wf := scatter_S16384x3x128_S400000x1_S400000x3x128_12_0_0_1_wf

abbrev win0_0 : Pipeline.Window sig grid0 :=
  Pipeline.Window.ofSpec (Memref.whole main_v18) S512x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512x3x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S512x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S20x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S128x384.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v25) S1x384.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v26_0) S512x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v26_1) S512x3x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384x3x128 : Shape := ⟨3, ![16384, 3, 128]⟩
abbrev S2x400000 : Shape := ⟨2, ![2, 400000]⟩
abbrev S400000x20 : Shape := ⟨2, ![400000, 20]⟩
abbrev S400000x3 : Shape := ⟨2, ![400000, 3]⟩
abbrev S20x128 : Shape := ⟨2, ![20, 128]⟩
abbrev S128 : Shape := ⟨1, ![128]⟩
abbrev S128x384 : Shape := ⟨2, ![128, 384]⟩
abbrev S384 : Shape := ⟨1, ![384]⟩
abbrev S128x128 : Shape := ⟨2, ![128, 128]⟩
abbrev S1x400000 : Shape := ⟨2, ![1, 400000]⟩
abbrev S400000 : Shape := ⟨1, ![400000]⟩
abbrev S400000x128 : Shape := ⟨2, ![400000, 128]⟩
abbrev S1x128 : Shape := ⟨2, ![1, 128]⟩
abbrev S_ : Shape := ⟨0, ![]⟩
abbrev S400000x384 : Shape := ⟨2, ![400000, 384]⟩
abbrev S1x384 : Shape := ⟨2, ![1, 384]⟩
abbrev S400000x1 : Shape := ⟨2, ![400000, 1]⟩
abbrev S400000x1x128 : Shape := ⟨3, ![400000, 1, 128]⟩
abbrev S400000x3x128 : Shape := ⟨3, ![400000, 3, 128]⟩
abbrev S400000x3x1 : Shape := ⟨3, ![400000, 3, 1]⟩

abbrev nBuf : Space → Nat
  | .hbm => 92
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x3x128, .f32⟩
  | .hbm, ⟨2, _⟩ => ⟨S2x400000, .i32⟩
  | .hbm, ⟨3, _⟩ => ⟨S400000x20, .f32⟩
  | .hbm, ⟨4, _⟩ => ⟨S400000x3, .f32⟩
  | .hbm, ⟨5, _⟩ => ⟨S20x128, .f32⟩
  | .hbm, ⟨6, _⟩ => ⟨S128, .f32⟩
  | .hbm, ⟨7, _⟩ => ⟨S128x384, .f32⟩
  | .hbm, ⟨8, _⟩ => ⟨S384, .f32⟩
  | .hbm, ⟨9, _⟩ => ⟨S128x128, .f32⟩
  | .hbm, ⟨10, _⟩ => ⟨S128, .f32⟩
  | .hbm, ⟨11, _⟩ => ⟨S128x384, .f32⟩
  | .hbm, ⟨12, _⟩ => ⟨S384, .f32⟩
  | .hbm, ⟨13, _⟩ => ⟨S1x400000, .i32⟩
  | .hbm, ⟨14, _⟩ => ⟨S400000, .i32⟩
  | .hbm, ⟨15, _⟩ => ⟨S1x400000, .i32⟩
  | .hbm, ⟨16, _⟩ => ⟨S400000, .i32⟩
  | .hbm, ⟨17, _⟩ => ⟨S400000x128, .f32⟩
  | .hbm, ⟨18, _⟩ => ⟨S1x128, .f32⟩
  | .hbm, ⟨19, _⟩ => ⟨S400000x128, .f32⟩
  | .hbm, ⟨20, _⟩ => ⟨S400000x128, .f32⟩
  | .hbm, ⟨21, _⟩ => ⟨S400000x128, .f32⟩
  | .hbm, ⟨22, _⟩ => ⟨S400000x128, .f32⟩
  | .hbm, ⟨23, _⟩ => ⟨S_, .f32⟩
  | .hbm, ⟨24, _⟩ => ⟨S400000x128, .f32⟩
  | .hbm, ⟨25, _⟩ => ⟨S400000x128, .f32⟩
  | .hbm, ⟨26, _⟩ => ⟨S_, .f32⟩
  | .hbm, ⟨27, _⟩ => ⟨S400000x128, .f32⟩
  | .hbm, ⟨28, _⟩ => ⟨S400000x128, .f32⟩
  | .hbm, ⟨29, _⟩ => ⟨S400000x128, .f32⟩
  | .hbm, ⟨30, _⟩ => ⟨S400000x384, .f32⟩
  | .hbm, ⟨31, _⟩ => ⟨S1x384, .f32⟩
  | .hbm, ⟨32, _⟩ => ⟨S400000x384, .f32⟩
  | .hbm, ⟨33, _⟩ => ⟨S400000x384, .f32⟩
  | .hbm, ⟨34, _⟩ => ⟨S_, .i32⟩
  | .hbm, ⟨35, _⟩ => ⟨S400000, .i32⟩
  | .hbm, ⟨36, _⟩ => ⟨S400000, .i1⟩
  | .hbm, ⟨37, _⟩ => ⟨S_, .i32⟩
  | .hbm, ⟨38, _⟩ => ⟨S400000, .i32⟩
  | .hbm, ⟨39, _⟩ => ⟨S400000, .i32⟩
  | .hbm, ⟨40, _⟩ => ⟨S400000, .i32⟩
  | .hbm, ⟨41, _⟩ => ⟨S400000x1, .i32⟩
  | .hbm, ⟨42, _⟩ => ⟨S400000x128, .f32⟩
  | .hbm, ⟨43, _⟩ => ⟨S400000x128, .f32⟩
  | .hbm, ⟨44, _⟩ => ⟨S1x128, .f32⟩
  | .hbm, ⟨45, _⟩ => ⟨S400000x128, .f32⟩
  | .hbm, ⟨46, _⟩ => ⟨S400000x128, .f32⟩
  | .hbm, ⟨47, _⟩ => ⟨S400000x128, .f32⟩
  | .hbm, ⟨48, _⟩ => ⟨S400000x128, .f32⟩
  | .hbm, ⟨49, _⟩ => ⟨S_, .f32⟩
  | .hbm, ⟨50, _⟩ => ⟨S400000x128, .f32⟩
  | .hbm, ⟨51, _⟩ => ⟨S400000x128, .f32⟩
  | .hbm, ⟨52, _⟩ => ⟨S_, .f32⟩
  | .hbm, ⟨53, _⟩ => ⟨S400000x128, .f32⟩
  | .hbm, ⟨54, _⟩ => ⟨S400000x128, .f32⟩
  | .hbm, ⟨55, _⟩ => ⟨S400000x128, .f32⟩
  | .hbm, ⟨56, _⟩ => ⟨S400000x384, .f32⟩
  | .hbm, ⟨57, _⟩ => ⟨S1x384, .f32⟩
  | .hbm, ⟨58, _⟩ => ⟨S400000x384, .f32⟩
  | .hbm, ⟨59, _⟩ => ⟨S400000x384, .f32⟩
  | .hbm, ⟨60, _⟩ => ⟨S400000x384, .f32⟩
  | .hbm, ⟨61, _⟩ => ⟨S400000x128, .f32⟩
  | .hbm, ⟨62, _⟩ => ⟨S400000x128, .f32⟩
  | .hbm, ⟨63, _⟩ => ⟨S400000x128, .f32⟩
  | .hbm, ⟨64, _⟩ => ⟨S400000x1x128, .f32⟩
  | .hbm, ⟨65, _⟩ => ⟨S_, .i32⟩
  | .hbm, ⟨66, _⟩ => ⟨S400000, .i32⟩
  | .hbm, ⟨67, _⟩ => ⟨S400000, .i1⟩
  | .hbm, ⟨68, _⟩ => ⟨S_, .i32⟩
  | .hbm, ⟨69, _⟩ => ⟨S400000, .i32⟩
  | .hbm, ⟨70, _⟩ => ⟨S400000, .i32⟩
  | .hbm, ⟨71, _⟩ => ⟨S400000, .i32⟩
  | .hbm, ⟨72, _⟩ => ⟨S400000x1, .i32⟩
  | .hbm, ⟨73, _⟩ => ⟨S400000x3x128, .f32⟩
  | .hbm, ⟨74, _⟩ => ⟨S400000x3x128, .f32⟩
  | .hbm, ⟨75, _⟩ => ⟨S400000x3x128, .f32⟩
  | .hbm, ⟨76, _⟩ => ⟨S400000x1x128, .f32⟩
  | .hbm, ⟨77, _⟩ => ⟨S400000x3x1, .f32⟩
  | .hbm, ⟨78, _⟩ => ⟨S400000x3x128, .f32⟩
  | .hbm, ⟨79, _⟩ => ⟨S400000x3x128, .f32⟩
  | .hbm, ⟨80, _⟩ => ⟨S400000x3x128, .f32⟩
  | .hbm, ⟨81, _⟩ => ⟨S400000x3x128, .f32⟩
  | .hbm, ⟨82, _⟩ => ⟨S_, .f32⟩
  | .hbm, ⟨83, _⟩ => ⟨S16384x128, .f32⟩
  | .hbm, ⟨84, _⟩ => ⟨S400000x1, .i32⟩
  | .hbm, ⟨85, _⟩ => ⟨S16384x128, .f32⟩
  | .hbm, ⟨86, _⟩ => ⟨S_, .f32⟩
  | .hbm, ⟨87, _⟩ => ⟨S16384x3x128, .f32⟩
  | .hbm, ⟨88, _⟩ => ⟨S400000x1, .i32⟩
  | .hbm, ⟨89, _⟩ => ⟨S16384x3x128, .f32⟩
  | .hbm, ⟨90, _⟩ => ⟨S16384x128, .f32⟩
  | .hbm, ⟨91, _⟩ => ⟨S16384x3x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_0 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_c_1 : Ref sig .tc := ⟨.hbm, 65, rfl⟩
abbrev main_v34 : Ref sig .tc := ⟨.hbm, 66, rfl⟩
abbrev main_v35 : Ref sig .tc := ⟨.hbm, 67, rfl⟩
abbrev main_c_2 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_3 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S384_S1x384_1 : S384.BroadcastsInDim S1x384 (![1] : Fin 1 → Fin S1x384.rank)
  bcast_S1x384_S400000x384_0_1 : S1x384.BroadcastsInDim S400000x384 (![0, 1] : Fin 2 → Fin S400000x384.rank)
  bcast_S_S400000 : S_.BroadcastsInDim S400000 (![] : Fin 0 → Fin S400000.rank)
  bcast_S400000_S400000x1_0 : S400000.BroadcastsInDim S400000x1 (![0] : Fin 1 → Fin S400000x1.rank)
  slices_S400000x384_S400000x128_0_0 : S400000x384.Slices ![0, 0] S400000x128
  slices_S400000x384_S400000x128_0_128 : S400000x384.Slices ![0, 128] S400000x128
  slices_S400000x384_S400000x128_0_256 : S400000x384.Slices ![0, 256] S400000x128
  bcast_S400000x128_S400000x1x128_0_2 : S400000x128.BroadcastsInDim S400000x1x128 (![0, 2] : Fin 2 → Fin S400000x1x128.rank)
  bcast_S400000x1x128_S400000x3x128_0_1_2 : S400000x1x128.BroadcastsInDim S400000x3x128 (![0, 1, 2] : Fin 3 → Fin S400000x3x128.rank)
  bcast_S400000x3_S400000x3x1_0_1 : S400000x3.BroadcastsInDim S400000x3x1 (![0, 1] : Fin 2 → Fin S400000x3x1.rank)
  bcast_S400000x3x1_S400000x3x128_0_1_2 : S400000x3x1.BroadcastsInDim S400000x3x128 (![0, 1, 2] : Fin 3 → Fin S400000x3x128.rank)
  bcast_S_S16384x128 : S_.BroadcastsInDim S16384x128 (![] : Fin 0 → Fin S16384x128.rank)
  bcast_S_S16384x3x128 : S_.BroadcastsInDim S16384x3x128 (![] : Fin 0 → Fin S16384x3x128.rank)
  dot_S400000x20_S20x128_S400000x128_1_0_0_1_n_n_wf : DotDims.WF S400000x20 S20x128 S400000x128 [1] [0] [0] [1] [] []
  dot_S400000x128_S128x384_S400000x384_1_0_0_1_n_n_wf : DotDims.WF S400000x128 S128x384 S400000x384 [1] [0] [0] [1] [] []
  gather_S16384x128_S400000x1_S400000x128_1_0_n_n_0_1_1128_wf : GatherDims.WF S16384x128 S400000x1 S400000x128 [1] [0] [] [0] [] 1 ![1, 128]
  dot_S400000x128_S128x128_S400000x128_1_0_0_1_n_n_wf : DotDims.WF S400000x128 S128x128 S400000x128 [1] [0] [0] [1] [] []
  gather_S16384x3x128_S400000x1_S400000x3x128_12_0_n_n_0_1_13128_wf : GatherDims.WF S16384x3x128 S400000x1 S400000x3x128 [1, 2] [0] [] [0] [] 1 ![1, 3, 128]
  scatter_S16384x128_S400000x1_S400000x128_1_0_0_1_wf : ScatterDims.WF S16384x128 S400000x1 S400000x128 [1] [0] [0] 1
  scatter_S16384x3x128_S400000x1_S400000x3x128_12_0_0_1_wf : ScatterDims.WF S16384x3x128 S400000x1 S400000x3x128 [1, 2] [0] [0] 1

variable [Facts₀]

def dot_S400000x20_S20x128_S400000x128_1_0_0_1_n_n : DotDims S400000x20 S20x128 S400000x128 where
  lhsContracting := [1]
  rhsContracting := [0]
  lhsNonContracting := [0]
  rhsNonContracting := [1]
  lhsBatch := []
  rhsBatch := []
  wf := dot_S400000x20_S20x128_S400000x128_1_0_0_1_n_n_wf
def dot_S400000x128_S128x384_S400000x384_1_0_0_1_n_n : DotDims S400000x128 S128x384 S400000x384 where
  lhsContracting := [1]
  rhsContracting := [0]
  lhsNonContracting := [0]
  rhsNonContracting := [1]
  lhsBatch := []
  rhsBatch := []
  wf := dot_S400000x128_S128x384_S400000x384_1_0_0_1_n_n_wf
def gather_S16384x128_S400000x1_S400000x128_1_0_n_n_0_1_1128 : GatherDims S16384x128 S400000x1 S400000x128 where
  offsetDims := [1]
  collapsedSliceDims := [0]
  operandBatchingDims := []
  startIndicesBatchingDims := []
  startIndexMap := [0]
  indexVectorDim := 1
  sliceSizes := ![1, 128]
  wf := gather_S16384x128_S400000x1_S400000x128_1_0_n_n_0_1_1128_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def gather_S16384x3x128_S400000x1_S400000x3x128_12_0_n_n_0_1_13128 : GatherDims S16384x3x128 S400000x1 S400000x3x128 where
  offsetDims := [1, 2]
  collapsedSliceDims := [0]
  operandBatchingDims := []
  startIndicesBatchingDims := []
  startIndexMap := [0]
  indexVectorDim := 1
  sliceSizes := ![1, 3, 128]
  wf := gather_S16384x3x128_S400000x1_S400000x3x128_12_0_n_n_0_1_13128_wf
def scatter_S16384x128_S400000x1_S400000x128_1_0_0_1 : ScatterDims S16384x128 S400000x1 S400000x128 where
  updateWindowDims := [1]
  insertedWindowDims := [0]
  scatterDimsToOperandDims := [0]
  indexVectorDim := 1
  wf := scatter_S16384x128_S400000x1_S400000x128_1_0_0_1_wf
def scatter_S16384x3x128_S400000x1_S400000x3x128_12_0_0_1 : ScatterDims S16384x3x128 S400000x1 S400000x3x128 where
  updateWindowDims := [1, 2]
  insertedWindowDims := [0]
  scatterDimsToOperandDims := [0]
  indexVectorDim := 1
  wf := scatter_S16384x3x128_S400000x1_S400000x3x128_12_0_0_1_wf

class Facts : Prop extends Facts₀ where

variable [Facts]
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«168599_j60601988547144_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibBiasLayer.lean ====
/-
  A dense layer with a bias row, as plain functions of matrices of extended reals, and each way a program spells it.

  `affine x w b` is the `[a, N]` matrix whose entry `(r, q)` is the row product `∑ₖ x (r, k) · w (k, q)` plus the
  bias `b q`; `reluAffine x w b` clamps every entry of it at zero from below. Both are stated entry by entry, so
  they read the same on a block of rows and on the whole matrix: entry `(r, q)` depends on `x` only through its
  row `r` (`affine_congr`, `reluAffine_congr`).

  A vector program lays the bias `[N]` out as a row `[1, N]` by a shape cast and over the `a` rows by a
  broadcast; a host program does both steps by `broadcast_in_dim`. Either way the laid-out bias read at `(r, q)`
  is `b q` (`row_over_rows_apply`, `host_row_over_rows_apply`). With the matrix product into a zero accumulator,
  respectively the `dot_general`, read as the row product, the whole layer read at `(r, q)` at the ideal values is
  `affine` (`vector_affine_apply`, `host_affine_apply`), and followed by the maximum against a splat of zero it is
  `reluAffine` (`vector_reluAffine_apply`, `host_reluAffine_apply`).

  All are generic in the extents.
-/
import Idealize.ShloMosaic.Lib.Pipeline.Value
import Idealize.ShloMosaic.Lib.ValueIdx
import Idealize.ShloMosaic.Lib.ValueLayout
import Idealize.ShloMosaic.PureOps.Ideal.Laws
import proofs.«168599_j60601988547144_1_alg».proof.Proof.LibDenseLayer

noncomputable section

namespace Cert.BiasLayer

open Idealize.ShloMosaic Idealize.ShloMosaic.ValueIdx Cert.DenseLayer

/-- A vector of `n` extended reals, indexed as the arrays are. -/
abbrev Row (n : ℕ) : Type := (⟨1, ![n]⟩ : Shape).Idx → EReal

variable {a K N : ℕ}

/-! ## The layer -/

/-- `x · w + b`, entry by entry: at `(r, q)` the row product of row `r` with column `q`, plus `b q`. -/
def affine (x : Mat a K) (w : Mat K N) (b : Row N) : Mat a N :=
  fun i => prodRow x w (i 0) (i 1) + b (ix1 (i 1))

/-- `x · w + b` clamped at zero from below, entry by entry (the zero written as the word a program writes). -/
def reluAffine (x : Mat a K) (w : Mat K N) (b : Row N) : Mat a N :=
  fun i => max (affine x w b i) (Ideal.ofBits .f32 0x00000000#32)

theorem affine_apply (x : Mat a K) (w : Mat K N) (b : Row N) (r : Fin a) (q : Fin N) :
    affine x w b (ix2 r q) = prodRow x w r q + b (ix1 q) := rfl

theorem reluAffine_apply (x : Mat a K) (w : Mat K N) (b : Row N) (r : Fin a) (q : Fin N) :
    reluAffine x w b (ix2 r q) = max (affine x w b (ix2 r q)) (Ideal.ofBits .f32 0x00000000#32) := rfl

/-- An entry of the layer depends on the left matrix only through the entry's row. -/
theorem affine_congr {a' : ℕ} (x : Mat a K) (x' : Mat a' K) (w : Mat K N) (b : Row N) (r : Fin a) (r' : Fin a')
    (h : ∀ k, x (ix2 r k) = x' (ix2 r' k)) (q : Fin N) : affine x w b (ix2 r q) = affine x' w b (ix2 r' q) := by
  rw [affine_apply, affine_apply, prodRow_congr x x' w r r' h]

/-- The same for the clamped layer. -/
theorem reluAffine_congr {a' : ℕ} (x : Mat a K) (x' : Mat a' K) (w : Mat K N) (b : Row N) (r : Fin a) (r' : Fin a')
    (h : ∀ k, x (ix2 r k) = x' (ix2 r' k)) (q : Fin N) :
    reluAffine x w b (ix2 r q) = reluAffine x' w b (ix2 r' q) := by
  rw [reluAffine_apply, reluAffine_apply, affine_congr x x' w b r r' h q]

/-! ## The bias laid over the rows -/

variable {α : Type}

/-- A vector `[N]` cast to the row `[1, N]` reads, at `(u, q)`, the vector at `q`, whatever the unit coordinate. -/
theorem shapeCast_n_1n_apply (v : (⟨1, ![N]⟩ : Shape).Idx → α) (h : (⟨1, ![N]⟩ : Shape).ShapeCasts ⟨2, ![1, N]⟩)
    (u : Fin 1) (q : Fin N) : shapeCast ⟨2, ![1, N]⟩ v h (ix2 u q) = v (ix1 q) :=
  shapeCast_apply v h _ _ (by
    have hu : u.val = 0 := by omega
    rw [Shape.rowMajor_val_two, Shape.rowMajor_val_one]
    show q.val = u.val * N + q.val
    rw [hu, Nat.zero_mul, Nat.zero_add])

/-- A vector program's bias: the vector as a row, broadcast over `a` rows, is `v q` at `(r, q)`. -/
theorem row_over_rows_apply (v : (⟨1, ![N]⟩ : Shape).Idx → α) (hc : (⟨1, ![N]⟩ : Shape).ShapeCasts ⟨2, ![1, N]⟩)
    (hb : (⟨2, ![1, N]⟩ : Shape).Broadcasts ⟨2, ![a, N]⟩) (r : Fin a) (q : Fin N) :
    broadcastTo ⟨2, ![a, N]⟩ (shapeCast ⟨2, ![1, N]⟩ v hc) hb (ix2 r q) = v (ix1 q) :=
  (broadcastTo_1b_ab_apply _ hb r q).trans (shapeCast_n_1n_apply v hc 0 q)

/-- A host program's bias: the vector broadcast into the row `[1, N]` along its second axis, then over `a` rows,
    is `v q` at `(r, q)`. -/
theorem host_row_over_rows_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    broadcastInDim ⟨2, ![a, N]⟩ ![0, 1] h2 (broadcastInDim ⟨2, ![1, N]⟩ ![1] h1 v) (ix2 r q) = v (ix1 q) := by
  have hq : q.val = if N = 1 then 0 else q.val := by
    split
    · have := q.isLt; omega
    · rfl
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ => exact hq
  · match ax with
    | ⟨0, _⟩ => exact hq

/-- A host program's splat of a scalar constant reads that constant everywhere. -/
theorem host_splat_apply {s : Shape} (c : (⟨0, ![]⟩ : Shape).Idx → α) (h : (⟨0, ![]⟩ : Shape).BroadcastsInDim s ![])
    (i : s.Idx) : broadcastInDim s ![] h c i = c ix0 :=
  broadcastInDim_apply _ h c i ix0 fun ax => ax.elim0

/-! ## The layer as a vector program and as a host program spell it -/

section Spellings

variable {φ₁ φ₂ : FTy} {d : DotDims ⟨2, ![a, K]⟩ ⟨2, ![K, N]⟩ ⟨2, ![a, N]⟩}
  (x : FVec Ideal ⟨2, ![a, K]⟩ φ₁) (w : FVec Ideal ⟨2, ![K, N]⟩ φ₂) (b : FVec Ideal ⟨1, ![N]⟩ .f32)

/-- A vector program's product into the zero accumulator plus the laid-out bias is `affine`, entry by entry. -/
theorem vector_affine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    addf (matmul d prec x w (constant ⟨2, ![a, N]⟩ .f32 0x00000000#32))
        (broadcastTo ⟨2, ![a, N]⟩ (shapeCast ⟨2, ![1, N]⟩ b hc) hb) (ix2 r q)
      = affine x w b (ix2 r q) := by
  show FloatOps.matmul d prec x w (constant ⟨2, ![a, N]⟩ .f32 0x00000000#32) (ix2 r q)
      + broadcastTo ⟨2, ![a, N]⟩ (shapeCast ⟨2, ![1, N]⟩ b hc) hb (ix2 r q) = _
  rw [matmul_zero_apply hd, row_over_rows_apply]
  rfl

/-- Followed by the maximum against a splat of the zero word it is `reluAffine`. -/
theorem vector_reluAffine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    maximumf (addf (matmul d prec x w (constant ⟨2, ![a, N]⟩ .f32 0x00000000#32))
        (broadcastTo ⟨2, ![a, N]⟩ (shapeCast ⟨2, ![1, N]⟩ b hc) hb))
        (broadcast ⟨2, ![a, N]⟩ (Scalar.ofBits (F := Ideal) .f32 0x00000000#32)) (ix2 r q)
      = reluAffine x w b (ix2 r q) := by
  show max (addf (matmul d prec x w (constant ⟨2, ![a, N]⟩ .f32 0x00000000#32))
        (broadcastTo ⟨2, ![a, N]⟩ (shapeCast ⟨2, ![1, N]⟩ b hc) hb) (ix2 r q)) (Ideal.ofBits .f32 0x00000000#32) = _
  rw [vector_affine_apply x w b hd prec hc hb r q]
  rfl

/-- A host program's `dot_general` plus the laid-out bias is `affine`, entry by entry. -/
theorem host_affine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    addf (Host.dotGeneral d prec x w)
        (broadcastInDim ⟨2, ![a, N]⟩ ![0, 1] h2 (broadcastInDim ⟨2, ![1, N]⟩ ![1] h1 b)) (ix2 r q)
      = affine x w b (ix2 r q) := by
  show FloatOps.dotGeneral d prec .single x w (ix2 r q)
      + broadcastInDim ⟨2, ![a, N]⟩ ![0, 1] h2 (broadcastInDim ⟨2, ![1, N]⟩ ![1] h1 b) (ix2 r q) = _
  rw [dotGeneral_apply hd, host_row_over_rows_apply]
  rfl

/-- Followed by the maximum against a host splat of the zero word it is `reluAffine`. -/
theorem host_reluAffine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1])
    (h0 : (⟨0, ![]⟩ : Shape).BroadcastsInDim ⟨2, ![a, N]⟩ ![]) (r : Fin a) (q : Fin N) :
    maximumf (addf (Host.dotGeneral d prec x w)
        (broadcastInDim ⟨2, ![a, N]⟩ ![0, 1] h2 (broadcastInDim ⟨2, ![1, N]⟩ ![1] h1 b)))
        (broadcastInDim ⟨2, ![a, N]⟩ ![] h0 (constant (F := Ideal) ⟨0, ![]⟩ .f32 0x00000000#32)) (ix2 r q)
      = reluAffine x w b (ix2 r q) := by
  show max (addf (Host.dotGeneral d prec x w)
        (broadcastInDim ⟨2, ![a, N]⟩ ![0, 1] h2 (broadcastInDim ⟨2, ![1, N]⟩ ![1] h1 b)) (ix2 r q))
      (broadcastInDim ⟨2, ![a, N]⟩ ![] h0 (constant (F := Ideal) ⟨0, ![]⟩ .f32 0x00000000#32) (ix2 r q)) = _
  rw [host_affine_apply x w b hd prec h1 h2 r q, host_splat_apply]
  rfl

end Spellings

end Cert.BiasLayer

end
-- ==== Proof.LibSiluPerceptron.lean ====
/-
  A two-layer perceptron with the activation `z · σ(z)`, as plain functions of matrices of extended reals, and each
  way a program spells it.

  `silu z = z · σ(z)` with `σ z = 1 / (1 + e⁻ᶻ)` the logistic function. `hidden x w b` is the `[a, H]` matrix
  `silu (x · w + b)`, entry by entry, and `mlp x w₁ b₁ w₂ b₂ = hidden x w₁ b₁ · w₂ + b₂`. Both are stated entry by
  entry, so they read the same on a block of rows and on the whole matrix: entry `(r, q)` depends on `x` only
  through its row `r` (`mlp_congr`).

  A vector program writes the activation as `z · logistic z` (`vector_silu_apply`); a host program expands the
  logistic function into negate, exponential, add and divide, with both ones written as the word of `1.0`
  (`host_silu_apply`). A vector program that holds each bias as a `[1, n]` row lays it over the rows by a broadcast and
  may round the hidden layer to a narrower float format before the second product, which at the ideal values is the
  identity: read at `(r, q)` its first layer is `affine` (`row_affine_apply`), its hidden layer `hidden`
  (`row_hidden_apply`), its second product the row product over the hidden layer (`row_second_product_apply`) and the
  whole `mlp` (`row_mlp_apply`), with `rowOf b` the bias row read as a vector.

  All are generic in the extents and, for the products' operands, in the float formats.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«168599_j60601988547144_1_alg».proof.Proof.LibBiasLayer

noncomputable section

namespace Cert.SiluPerceptron

open Idealize.ShloMosaic Idealize.ShloMosaic.ValueIdx Cert.DenseLayer Cert.BiasLayer

/-- The activation `z · σ(z)` with `σ z = 1 / (1 + e⁻ᶻ)`. -/
def silu (z : EReal) : EReal := z * Ideal.logistic z

variable {a K H N : ℕ}

/-! ## The layers -/

/-- The hidden layer: `silu (x · w + b)`, entry by entry. -/
def hidden (x : Mat a K) (w : Mat K H) (b : Row H) : Mat a H := fun i => silu (affine x w b i)

/-- The two-layer perceptron `silu (x · w₁ + b₁) · w₂ + b₂`. -/
def mlp (x : Mat a K) (w1 : Mat K H) (b1 : Row H) (w2 : Mat H N) (b2 : Row N) : Mat a N :=
  affine (hidden x w1 b1) w2 b2

theorem hidden_apply (x : Mat a K) (w : Mat K H) (b : Row H) (r : Fin a) (k : Fin H) :
    hidden x w b (ix2 r k) = silu (affine x w b (ix2 r k)) := rfl

/-- Row `r` of the perceptron depends on the input only through its row `r`. -/
theorem mlp_congr {a' : ℕ} (x : Mat a K) (x' : Mat a' K) (w1 : Mat K H) (b1 : Row H) (w2 : Mat H N) (b2 : Row N)
    (r : Fin a) (r' : Fin a') (h : ∀ k, x (ix2 r k) = x' (ix2 r' k)) (q : Fin N) :
    mlp x w1 b1 w2 b2 (ix2 r q) = mlp x' w1 b1 w2 b2 (ix2 r' q) :=
  affine_congr _ _ w2 b2 r r' (fun k => by rw [hidden_apply, hidden_apply, affine_congr x x' w1 b1 r r' h k]) q

/-- A bias held as a `[1, n]` row, read as a vector. -/
def rowOf {n : ℕ} (b : Mat 1 n) : Row n := fun j => b (ix2 (0 : Fin 1) (j 0))

/-- A vector reshaped to a `[1, n]` row and read back as a vector is the vector. -/
theorem rowOf_shapeCast {n : ℕ} (b : (⟨1, ![n]⟩ : Shape).Idx → EReal) (h : (⟨1, ![n]⟩ : Shape).ShapeCasts ⟨2, ![1, n]⟩) :
    rowOf (shapeCast ⟨2, ![1, n]⟩ b h) = b :=
  funext fun j => (shapeCast_n_1n_apply b h 0 (j 0)).trans (congrArg b (eq_ix1 j).symm)

/-! ## The activation as the two kinds of program spell it -/

/-- A vector program's `z · logistic z`, entry by entry. -/
theorem vector_silu_apply {s : Shape} (z : FVec Ideal s .f32) (i : s.Idx) :
    mulf z (logistic z) i = silu (z i) := rfl

/-- A host program's `z · (1 / (1 + exp (-z)))` with both ones written as the word of `1.0`, entry by entry. -/
theorem host_silu_apply {s : Shape} (z : FVec Ideal s .f32) (h : (⟨0, ![]⟩ : Shape).BroadcastsInDim s ![]) (i : s.Idx) :
    mulf z (Host.divf (broadcastInDim s ![] h (constant (F := Ideal) ⟨0, ![]⟩ .f32 0x3F800000#32))
      (addf (broadcastInDim s ![] h (constant (F := Ideal) ⟨0, ![]⟩ .f32 0x3F800000#32)) (Host.exp (Host.negf z)))) i
      = silu (z i) := by
  show z i * Ideal.div (broadcastInDim s ![] h (constant (F := Ideal) ⟨0, ![]⟩ .f32 0x3F800000#32) i)
      (broadcastInDim s ![] h (constant (F := Ideal) ⟨0, ![]⟩ .f32 0x3F800000#32) i + Ideal.exp (-(z i))) = _
  rw [host_splat_apply]
  show z i * Ideal.div (Ideal.ofBits .f32 0x3F800000#32) (Ideal.ofBits .f32 0x3F800000#32 + Ideal.exp (-(z i))) = _
  rw [Ideal.ofBits_one_f32]
  rfl

/-! ## A perceptron whose biases are held as rows, as a vector program spells it -/

section Layers

variable {φ₁ φ₂ φ₃ ψ : FTy}
  {d : DotDims ⟨2, ![a, K]⟩ ⟨2, ![K, H]⟩ ⟨2, ![a, H]⟩} {d' : DotDims ⟨2, ![a, H]⟩ ⟨2, ![H, N]⟩ ⟨2, ![a, N]⟩}
  (x : FVec Ideal ⟨2, ![a, K]⟩ φ₁) (w : FVec Ideal ⟨2, ![K, H]⟩ φ₂) (b : FVec Ideal ⟨2, ![1, H]⟩ .f32)
  (w' : FVec Ideal ⟨2, ![H, N]⟩ φ₃) (b' : FVec Ideal ⟨2, ![1, N]⟩ .f32)

/-- The product into the zero accumulator plus the bias row laid over the rows is `affine`, entry by entry. -/
theorem row_affine_apply (hd : PlainDot d) (prec : Option ContractPrecision)
    (hb : (⟨2, ![1, H]⟩ : Shape).Broadcasts ⟨2, ![a, H]⟩) (r : Fin a) (k : Fin H) :
    addf (matmul d prec x w (constant (F := Ideal) ⟨2, ![a, H]⟩ .f32 0x00000000#32))
        (broadcastTo ⟨2, ![a, H]⟩ b hb) (ix2 r k)
      = affine x w (rowOf b) (ix2 r k) := by
  show FloatOps.matmul d prec x w (constant (F := Ideal) ⟨2, ![a, H]⟩ .f32 0x00000000#32) (ix2 r k)
      + broadcastTo ⟨2, ![a, H]⟩ b hb (ix2 r k) = _
  rw [matmul_zero_apply hd, broadcastTo_1b_ab_apply]
  rfl

/-- Followed by `z · logistic z` it is the hidden layer. -/
theorem row_hidden_apply (hd : PlainDot d) (prec : Option ContractPrecision)
    (hb : (⟨2, ![1, H]⟩ : Shape).Broadcasts ⟨2, ![a, H]⟩) (r : Fin a) (k : Fin H) :
    mulf (addf (matmul d prec x w (constant (F := Ideal) ⟨2, ![a, H]⟩ .f32 0x00000000#32))
          (broadcastTo ⟨2, ![a, H]⟩ b hb))
        (logistic (addf (matmul d prec x w (constant (F := Ideal) ⟨2, ![a, H]⟩ .f32 0x00000000#32))
          (broadcastTo ⟨2, ![a, H]⟩ b hb))) (ix2 r k)
      = hidden x w (rowOf b) (ix2 r k) :=
  (vector_silu_apply _ _).trans (congrArg silu (row_affine_apply x w b hd prec hb r k))

/-- The second product, over the hidden layer rounded to another format, is the row product over the hidden layer. -/
theorem row_second_product_apply (hd : PlainDot d) (hd' : PlainDot d') (prec prec' : Option ContractPrecision)
    (hb : (⟨2, ![1, H]⟩ : Shape).Broadcasts ⟨2, ![a, H]⟩) (hψ : ψ.bits < FTy.bits .f32) (r : Fin a) (q : Fin N) :
    matmul d' prec'
        (truncf ψ (mulf (addf (matmul d prec x w (constant (F := Ideal) ⟨2, ![a, H]⟩ .f32 0x00000000#32))
            (broadcastTo ⟨2, ![a, H]⟩ b hb))
          (logistic (addf (matmul d prec x w (constant (F := Ideal) ⟨2, ![a, H]⟩ .f32 0x00000000#32))
            (broadcastTo ⟨2, ![a, H]⟩ b hb)))) hψ)
        w' (constant (F := Ideal) ⟨2, ![a, N]⟩ .f32 0x00000000#32) (ix2 r q)
      = prodRow (hidden x w (rowOf b)) w' r q :=
  (matmul_zero_apply hd' prec' _ w' (ix2 r q)).trans
    (congrFun (prodRow_congr _ (hidden x w (rowOf b)) w' r r fun k => row_hidden_apply x w b hd prec hb r k) q)

/-- Plus the second bias row laid over the rows it is the perceptron. -/
theorem row_mlp_apply (hd : PlainDot d) (hd' : PlainDot d') (prec prec' : Option ContractPrecision)
    (hb : (⟨2, ![1, H]⟩ : Shape).Broadcasts ⟨2, ![a, H]⟩) (hb' : (⟨2, ![1, N]⟩ : Shape).Broadcasts ⟨2, ![a, N]⟩)
    (hψ : ψ.bits < FTy.bits .f32) (r : Fin a) (q : Fin N) :
    addf (matmul d' prec'
        (truncf ψ (mulf (addf (matmul d prec x w (constant (F := Ideal) ⟨2, ![a, H]⟩ .f32 0x00000000#32))
            (broadcastTo ⟨2, ![a, H]⟩ b hb))
          (logistic (addf (matmul d prec x w (constant (F := Ideal) ⟨2, ![a, H]⟩ .f32 0x00000000#32))
            (broadcastTo ⟨2, ![a, H]⟩ b hb)))) hψ)
        w' (constant (F := Ideal) ⟨2, ![a, N]⟩ .f32 0x00000000#32)) (broadcastTo ⟨2, ![a, N]⟩ b' hb') (ix2 r q)
      = mlp x w (rowOf b) w' (rowOf b') (ix2 r q) := by
  refine (addf_apply _ _ _).trans ?_
  rw [row_second_product_apply x w b w' hd hd' prec prec' hb hψ r q, broadcastTo_1b_ab_apply]
  rfl

end Layers

end Cert.SiluPerceptron

end
-- ==== Proof.Spec.lean ====
/-
  The message function of an equivariant interaction layer, as plain functions of arrays of extended reals.

  For every edge `e` the layer forms two vectors of length 384, each by a two-layer perceptron with the activation
  `z ↦ z · σ(z)` (`σ` the logistic function): the FILTER from the edge's 20 radial features, and the SCALAR part from the
  128 features of the edge's source node. Their entrywise product is the edge's message `msg e`. The message is cut in
  three: columns 0–127 are the update `ds e` of the scalar features, and columns 128–255 and 256–383 weigh the source
  node's vector features `v e` and the edge's direction `u e` in the update of the vector features,
      dv e j q = msg e (128 + q) · v e j q + msg e (256 + q) · u e j.

  Everything is stated entry by entry over an arbitrary number `a` of edges, so that it reads the same on a block of
  512 edges, on the edge list padded to a multiple of 512, and on the edge list itself: row `e` of the message depends
  on the inputs only through their rows `e` (`msg_congr`).
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«168599_j60601988547144_1_alg».proof.Proof.LibSiluPerceptron

noncomputable section

namespace Cert.Interaction

open Idealize.ShloMosaic Idealize.ShloMosaic.ValueIdx Cert.DenseLayer Cert.BiasLayer

/- The activation `silu`, the layers `hidden` and `mlp` with their row congruence, a bias row read as a vector (`rowOf`) and
   the activation as a vector program and as a host program spell it are general (LibSiluPerceptron). -/
export Cert.SiluPerceptron (silu hidden mlp hidden_apply mlp_congr rowOf rowOf_shapeCast vector_silu_apply host_silu_apply)

variable {a : ℕ}

/-- The eight weight arrays of the two perceptrons. -/
structure Weights where
  fW1 : Mat 20 128
  fb1 : Row 128
  fW2 : Mat 128 384
  fb2 : Row 384
  sW1 : Mat 128 128
  sb1 : Row 128
  sW2 : Mat 128 384
  sb2 : Row 384

/-- The weights with the four biases held as `[1, n]` rows. -/
def Weights.ofRows (fW1 : Mat 20 128) (fb1 : Mat 1 128) (fW2 : Mat 128 384) (fb2 : Mat 1 384)
    (sW1 : Mat 128 128) (sb1 : Mat 1 128) (sW2 : Mat 128 384) (sb2 : Mat 1 384) : Weights :=
  ⟨fW1, rowOf fb1, fW2, rowOf fb2, sW1, rowOf sb1, sW2, rowOf sb2⟩

/-- The message: the filter perceptron of the radial features times the scalar perceptron of the source features. -/
def msg (W : Weights) (rbf : Mat a 20) (s : Mat a 128) : Mat a 384 :=
  fun i => mlp rbf W.fW1 W.fb1 W.fW2 W.fb2 i * mlp s W.sW1 W.sb1 W.sW2 W.sb2 i

theorem msg_apply (W : Weights) (rbf : Mat a 20) (s : Mat a 128) (r : Fin a) (q : Fin 384) :
    msg W rbf s (ix2 r q)
      = mlp rbf W.fW1 W.fb1 W.fW2 W.fb2 (ix2 r q) * mlp s W.sW1 W.sb1 W.sW2 W.sb2 (ix2 r q) := rfl

/-- Row `r` of the message depends on the inputs only through their rows `r`. -/
theorem msg_congr {a' : ℕ} (W : Weights) (rbf : Mat a 20) (s : Mat a 128) (rbf' : Mat a' 20) (s' : Mat a' 128)
    (r : Fin a) (r' : Fin a') (hr : ∀ k, rbf (ix2 r k) = rbf' (ix2 r' k)) (hs : ∀ k, s (ix2 r k) = s' (ix2 r' k))
    (q : Fin 384) : msg W rbf s (ix2 r q) = msg W rbf' s' (ix2 r' q) := by
  rw [msg_apply, msg_apply, mlp_congr rbf rbf' _ _ _ _ r r' hr q, mlp_congr s s' _ _ _ _ r r' hs q]

/-- The three column ranges of the message. -/
def col0 (q : Fin 128) : Fin 384 := ⟨q.val, by omega⟩
def col1 (q : Fin 128) : Fin 384 := ⟨128 + q.val, by omega⟩
def col2 (q : Fin 128) : Fin 384 := ⟨256 + q.val, by omega⟩

/-- An `[a, 3, 128]` array of extended reals. -/
abbrev Ten (a : ℕ) : Type := (⟨3, ![a, 3, 128]⟩ : Shape).Idx → EReal

/-- The update of the scalar features, per edge: the message's first 128 columns. -/
def dsOf (W : Weights) (rbf : Mat a 20) (s : Mat a 128) : Mat a 128 :=
  fun i => msg W rbf s (ix2 (i 0) (col0 (i 1)))

/-- The update of the vector features, per edge. -/
def dvOf (W : Weights) (rbf : Mat a 20) (s : Mat a 128) (v : Ten a) (u : Mat a 3) : Ten a :=
  fun i => msg W rbf s (ix2 (i 0) (col1 (i 2))) * v (ix3 (i 0) (i 1) (i 2))
    + msg W rbf s (ix2 (i 0) (col2 (i 2))) * u (ix2 (i 0) (i 1))

theorem dsOf_apply (W : Weights) (rbf : Mat a 20) (s : Mat a 128) (r : Fin a) (q : Fin 128) :
    dsOf W rbf s (ix2 r q) = msg W rbf s (ix2 r (col0 q)) := rfl

theorem dvOf_apply (W : Weights) (rbf : Mat a 20) (s : Mat a 128) (v : Ten a) (u : Mat a 3)
    (r : Fin a) (j : Fin 3) (q : Fin 128) :
    dvOf W rbf s v u (ix3 r j q)
      = msg W rbf s (ix2 r (col1 q)) * v (ix3 r j q) + msg W rbf s (ix2 r (col2 q)) * u (ix2 r j) := rfl

/-- `ds` at row `r` depends on the inputs only through their rows `r`. -/
theorem dsOf_congr {a' : ℕ} (W : Weights) (rbf : Mat a 20) (s : Mat a 128) (rbf' : Mat a' 20) (s' : Mat a' 128)
    (r : Fin a) (r' : Fin a') (hr : ∀ k, rbf (ix2 r k) = rbf' (ix2 r' k)) (hs : ∀ k, s (ix2 r k) = s' (ix2 r' k))
    (q : Fin 128) : dsOf W rbf s (ix2 r q) = dsOf W rbf' s' (ix2 r' q) :=
  msg_congr W rbf s rbf' s' r r' hr hs (col0 q)

/-- `dv` at row `r` depends on the inputs only through their rows `r`. -/
theorem dvOf_congr {a' : ℕ} (W : Weights) (rbf : Mat a 20) (s : Mat a 128) (v : Ten a) (u : Mat a 3)
    (rbf' : Mat a' 20) (s' : Mat a' 128) (v' : Ten a') (u' : Mat a' 3) (r : Fin a) (r' : Fin a')
    (hr : ∀ k, rbf (ix2 r k) = rbf' (ix2 r' k)) (hs : ∀ k, s (ix2 r k) = s' (ix2 r' k))
    (hv : ∀ j q, v (ix3 r j q) = v' (ix3 r' j q)) (hu : ∀ j, u (ix2 r j) = u' (ix2 r' j))
    (j : Fin 3) (q : Fin 128) : dvOf W rbf s v u (ix3 r j q) = dvOf W rbf' s' v' u' (ix3 r' j q) := by
  rw [dvOf_apply, dvOf_apply, msg_congr W rbf s rbf' s' r r' hr hs (col1 q),
    msg_congr W rbf s rbf' s' r r' hr hs (col2 q), hv j q, hu j]

end Cert.Interaction

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«168599_j60601988547144_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.RefStages.lean ====
/-
  The reference program's per-edge stages are the specification's functions.

  The reference computes, for all 400000 edges at once, the filter perceptron of the radial features, the scalar
  perceptron of the gathered source features, their entrywise product (the message), the message's three column
  ranges, and from them the per-edge updates `ds` and `dv`. Each stage is read here as the corresponding function of
  the specification, as an equality of whole arrays: a `dot_general` plus a bias laid over the rows is `affine`, the
  activation call is `silu` entry by entry, so a hidden layer is `hidden` and a perceptron is `mlp`; the product of
  the two perceptrons is `msg`; the first column slice is `dsOf`; and the second and third slices, laid over the
  three directions and combined with the gathered vector features and the edge directions, are `dvOf`.

  The two gathers (the source node's scalar and vector features) are not opened: they enter as the arrays they are.
-/
import proofs.«168599_j60601988547144_1_alg».proof.Proof.Gen.ReferenceIdeal.Read
import proofs.«168599_j60601988547144_1_alg».proof.Proof.Spec
import proofs.«168599_j60601988547144_1_alg».proof.Proof.LibPlainDot

noncomputable section

namespace Cert.Interaction.Ref

open Cert.ReferenceIdeal Cert.ReferenceIdeal.Gen Cert.ReferenceIdeal.Read Cert.Interaction Cert.DenseLayer Cert.BiasLayer
  Idealize.ShloMosaic Idealize.ShloMosaic.ValueIdx

variable (x0 : (⟨S16384x128, .f32⟩ : BufTy).Contents (Elt Ideal)) (x1 : (⟨S16384x3x128, .f32⟩ : BufTy).Contents (Elt Ideal))
  (x2 : (⟨S2x400000, .i32⟩ : BufTy).Contents (Elt Ideal)) (x3 : (⟨S400000x20, .f32⟩ : BufTy).Contents (Elt Ideal))
  (x4 : (⟨S400000x3, .f32⟩ : BufTy).Contents (Elt Ideal)) (x5 : (⟨S20x128, .f32⟩ : BufTy).Contents (Elt Ideal))
  (x6 : (⟨S128, .f32⟩ : BufTy).Contents (Elt Ideal)) (x7 : (⟨S128x384, .f32⟩ : BufTy).Contents (Elt Ideal))
  (x8 : (⟨S384, .f32⟩ : BufTy).Contents (Elt Ideal)) (x9 : (⟨S128x128, .f32⟩ : BufTy).Contents (Elt Ideal))
  (x10 : (⟨S128, .f32⟩ : BufTy).Contents (Elt Ideal)) (x11 : (⟨S128x384, .f32⟩ : BufTy).Contents (Elt Ideal))
  (x12 : (⟨S384, .f32⟩ : BufTy).Contents (Elt Ideal))

/-- The reference's weights as the specification's record (its biases are vectors already). -/
abbrev W : Weights := ⟨x5, x6, x7, x8, x9, x10, x11, x12⟩

/-! ## The filter perceptron of the radial features -/

/-- The first layer before its activation: the radial features times the first weights, plus the bias. -/
theorem filter_pre_eq : val_main_v7 (F := Ideal) x3 x5 x6 = affine x3 x5 x6 := by
  funext i
  obtain ⟨r, q, rfl⟩ : ∃ (r : Fin 400000) (q : Fin 128), i = ix2 r q := ⟨i 0, i 1, eq_ix2 i⟩
  unfold val_main_v7 val_main_v6 val_main_v5 val_main_v4
  exact host_affine_apply x3 x5 x6 (plainDot_of_axes _ rfl rfl rfl rfl rfl rfl) none _ _ r q

/-- The hidden layer: the activation `z · σ(z)` of the first layer, entry by entry. -/
theorem filter_hidden_eq : val_main_v8 (F := Ideal) x3 x5 x6 = hidden x3 x5 x6 := by
  funext i
  unfold val_main_v8 val_main_call0_v5 val_main_call0_v4 val_main_call0_cst_0 val_main_call0_v3 val_main_call0_v2
    val_main_call0_cst val_main_call0_v1 val_main_call0_v0
  rw [host_silu_apply, filter_pre_eq]
  rfl

/-- The filter: the hidden layer times the second weights, plus the bias. -/
theorem filter_eq : val_main_v12 (F := Ideal) x3 x5 x6 x7 x8 = mlp x3 x5 x6 x7 x8 := by
  funext i
  obtain ⟨r, q, rfl⟩ : ∃ (r : Fin 400000) (q : Fin 384), i = ix2 r q := ⟨i 0, i 1, eq_ix2 i⟩
  unfold val_main_v12 val_main_v11 val_main_v10 val_main_v9
  rw [filter_hidden_eq]
  exact host_affine_apply (hidden x3 x5 x6) x7 x8 (plainDot_of_axes _ rfl rfl rfl rfl rfl rfl) none _ _ r q

/-! ## The scalar perceptron of the gathered source features -/

/-- The first layer before its activation, on the gathered source features. -/
theorem scalar_pre_eq :
    val_main_v23 (F := Ideal) x0 x2 x9 x10 = affine (val_main_v19 (F := Ideal) x0 x2) x9 x10 := by
  funext i
  obtain ⟨r, q, rfl⟩ : ∃ (r : Fin 400000) (q : Fin 128), i = ix2 r q := ⟨i 0, i 1, eq_ix2 i⟩
  unfold val_main_v23 val_main_v22 val_main_v21 val_main_v20
  exact host_affine_apply (val_main_v19 (F := Ideal) x0 x2) x9 x10 (plainDot_of_axes _ rfl rfl rfl rfl rfl rfl) none _ _ r q

/-- Its hidden layer. -/
theorem scalar_hidden_eq :
    val_main_v24 (F := Ideal) x0 x2 x9 x10 = hidden (val_main_v19 (F := Ideal) x0 x2) x9 x10 := by
  funext i
  unfold val_main_v24 val_main_call1_v5 val_main_call1_v4 val_main_call1_cst_0 val_main_call1_v3 val_main_call1_v2
    val_main_call1_cst val_main_call1_v1 val_main_call1_v0
  rw [host_silu_apply, scalar_pre_eq]
  rfl

/-- The scalar perceptron. -/
theorem scalar_eq :
    val_main_v28 (F := Ideal) x0 x2 x9 x10 x11 x12 = mlp (val_main_v19 (F := Ideal) x0 x2) x9 x10 x11 x12 := by
  funext i
  obtain ⟨r, q, rfl⟩ : ∃ (r : Fin 400000) (q : Fin 384), i = ix2 r q := ⟨i 0, i 1, eq_ix2 i⟩
  unfold val_main_v28 val_main_v27 val_main_v26 val_main_v25
  rw [scalar_hidden_eq]
  exact host_affine_apply (hidden (val_main_v19 (F := Ideal) x0 x2) x9 x10) x11 x12
    (plainDot_of_axes _ rfl rfl rfl rfl rfl rfl) none _ _ r q

/-! ## The message and its column ranges -/

/-- The message: the filter times the scalar perceptron, entry by entry. -/
theorem message_eq :
    val_main_v29 (F := Ideal) x0 x2 x3 x5 x6 x7 x8 x9 x10 x11 x12
      = msg (W x5 x6 x7 x8 x9 x10 x11 x12) x3 (val_main_v19 (F := Ideal) x0 x2) := by
  funext i
  unfold val_main_v29
  rw [filter_eq, scalar_eq]
  rfl

/-- The update of the scalar features, per edge: the message's first 128 columns. -/
theorem ds_eq :
    val_main_v30 (F := Ideal) x0 x2 x3 x5 x6 x7 x8 x9 x10 x11 x12
      = dsOf (W x5 x6 x7 x8 x9 x10 x11 x12) x3 (val_main_v19 (F := Ideal) x0 x2) := by
  funext i
  obtain ⟨r, q, rfl⟩ : ∃ (r : Fin 400000) (q : Fin 128), i = ix2 r q := ⟨i 0, i 1, eq_ix2 i⟩
  have hc : idx_main_v30 (ix2 r q) = ix2 r (col0 q) := funext fun a => Fin.ext (by
    match a with
    | ⟨0, _⟩ => rfl
    | ⟨1, _⟩ => rfl)
  rw [val_main_v30_apply, message_eq, hc, dsOf_apply]

/-! ## The update of the vector features -/

/-- The update of the vector features, per edge: the message's columns 128–255, laid over the three directions, times
    the gathered vector features, plus its columns 256–383, laid the same way, times the edge's direction laid over
    the 128 features. -/
theorem dv_eq :
    val_main_v48 (F := Ideal) x0 x1 x2 x3 x4 x5 x6 x7 x8 x9 x10 x11 x12
      = dvOf (W x5 x6 x7 x8 x9 x10 x11 x12) x3 (val_main_v19 (F := Ideal) x0 x2) (val_main_v40 (F := Ideal) x1 x2) x4 := by
  funext i
  obtain ⟨r, j, q, rfl⟩ : ∃ (r : Fin 400000) (j : Fin 3) (q : Fin 128), i = ix3 r j q := ⟨i 0, i 1, i 2, eq_ix3 i⟩
  have h1 : idx_main_v31 (idx_main_v33 (idx_main_v41 (ix3 r j q))) = ix2 r (col1 q) := funext fun a => Fin.ext (by
    match a with
    | ⟨0, _⟩ => rfl
    | ⟨1, _⟩ => rfl)
  have h2 : idx_main_v32 (idx_main_v43 (idx_main_v45 (ix3 r j q))) = ix2 r (col2 q) := funext fun a => Fin.ext (by
    match a with
    | ⟨0, _⟩ => rfl
    | ⟨1, _⟩ => rfl)
  have hu : idx_main_v44 (idx_main_v46 (ix3 r j q)) = ix2 r j := funext fun a => Fin.ext (by
    match a with
    | ⟨0, _⟩ => rfl
    | ⟨1, _⟩ => rfl)
  rw [val_main_v48_apply, val_main_v42_apply, val_main_v47_apply, val_main_v41_apply, val_main_v33_apply,
    val_main_v31_apply, val_main_v45_apply, val_main_v43_apply, val_main_v32_apply, val_main_v46_apply,
    val_main_v44_apply, message_eq, h1, h2, hu, dvOf_apply]
  rfl

end Cert.Interaction.Ref

end
-- ==== Proof.LibOverAxis.lean ====
/-
  A matrix laid over a new middle axis, or over a new last axis, read at an index.

  A vector program that combines an `[a, b]` matrix with an `[a, c, b]` array first casts the matrix to `[a, 1, b]` and
  broadcasts it over the `c` entries of the middle axis; to combine an `[a, c]` matrix with the same array it casts
  the matrix to `[a, c, 1]` and broadcasts it over the `b` entries of the last axis. Read at `(r, j, q)` the first is the
  matrix at `(r, q)` (`over_components_apply`) and the second the matrix at `(r, j)` (`over_lanes_apply`).

  Both are generic in the extents and in the element type.
-/
import Idealize.ShloMosaic.Lib.Pipeline.Value
import Idealize.ShloMosaic.Lib.ValueIdx

namespace Cert.OverAxis

open Idealize.ShloMosaic Idealize.ShloMosaic.ValueIdx

variable {α : Type} {a c b : ℕ}

/-- An `[a, b]` matrix cast to `[a, 1, b]` and broadcast over `c` components reads, at `(r, j, q)`, the matrix at
    `(r, q)`. -/
theorem over_components_apply (v : (⟨2, ![a, b]⟩ : Shape).Idx → α)
    (hc : (⟨2, ![a, b]⟩ : Shape).ShapeCasts ⟨3, ![a, 1, b]⟩)
    (hb : (⟨3, ![a, 1, b]⟩ : Shape).Broadcasts ⟨3, ![a, c, b]⟩) (r : Fin a) (j : Fin c) (q : Fin b) :
    broadcastTo ⟨3, ![a, c, b]⟩ (shapeCast ⟨3, ![a, 1, b]⟩ v hc) hb (ix3 r j q) = v (ix2 r q) := by
  refine (broadcastTo_apply _ hb (ix3 r j q) (ix3 r (0 : Fin 1) q) fun ax => ?_).trans
    (shapeCast_apply v hc _ (ix2 r q) ?_)
  · match ax with
    | ⟨0, _⟩ =>
      show r.val = if a = 1 then 0 else r.val
      split
      · have := r.isLt; omega
      · rfl
    | ⟨1, _⟩ => rfl
    | ⟨2, _⟩ =>
      show q.val = if b = 1 then 0 else q.val
      split
      · have := q.isLt; omega
      · rfl
  · rw [Shape.rowMajor_val_two, Shape.rowMajor_val_three]
    show r.val * b + q.val = (r.val * 1 + 0) * b + q.val
    rw [Nat.mul_one, Nat.add_zero]

/-- An `[a, c]` matrix cast to `[a, c, 1]` and broadcast over `b` lanes reads, at `(r, j, q)`, the matrix at `(r, j)`. -/
theorem over_lanes_apply (u : (⟨2, ![a, c]⟩ : Shape).Idx → α)
    (hc : (⟨2, ![a, c]⟩ : Shape).ShapeCasts ⟨3, ![a, c, 1]⟩)
    (hb : (⟨3, ![a, c, 1]⟩ : Shape).Broadcasts ⟨3, ![a, c, b]⟩) (r : Fin a) (j : Fin c) (q : Fin b) :
    broadcastTo ⟨3, ![a, c, b]⟩ (shapeCast ⟨3, ![a, c, 1]⟩ u hc) hb (ix3 r j q) = u (ix2 r j) := by
  refine (broadcastTo_apply _ hb (ix3 r j q) (ix3 r j (0 : Fin 1)) fun ax => ?_).trans
    (shapeCast_apply u hc _ (ix2 r j) ?_)
  · match ax with
    | ⟨0, _⟩ =>
      show r.val = if a = 1 then 0 else r.val
      split
      · have := r.isLt; omega
      · rfl
    | ⟨1, _⟩ =>
      show j.val = if c = 1 then 0 else j.val
      split
      · have := j.isLt; omega
      · rfl
    | ⟨2, _⟩ => rfl
  · rw [Shape.rowMajor_val_two, Shape.rowMajor_val_three]
    show r.val * c + j.val = (r.val * c + j.val) * 1 + 0
    rw [Nat.mul_one, Nat.add_zero]

end Cert.OverAxis
-- ==== Proof.Payload.lean ====
/-
  The body of the interaction kernel on one block of 512 edges, read at an index.

  The body holds the four bias vectors as rows [1, n] and lays each over the 512 rows of its layer by a broadcast; it
  rounds every operand of its four matrix products to a narrower float format, which at the ideal values is the
  identity, and casts every loaded block to its own shape, which is the identity too. Read entry by entry it is the
  specification's message: a dense layer with a row bias is affine, followed by z · logistic z it is hidden, the
  second product over it plus the second row bias is mlp, and the product of the filter's perceptron with the
  scalar perceptron is msg. The block stored into the scalar update is the message's columns 0–127; the block stored
  into the vector update weighs the source vectors by the columns 128–255 and the directions by the columns 256–383,
  both laid over the three spatial components by a shape cast and a broadcast. The perceptron with row biases in a
  vector program's spelling, and the two layouts, are general lemmas (LibSiluPerceptron, LibOverAxis).
-/
import proofs.«168599_j60601988547144_1_alg».proof.Proof.Gen.KernelIdeal.Skeleton
import proofs.«168599_j60601988547144_1_alg».proof.Proof.Spec
import proofs.«168599_j60601988547144_1_alg».proof.Proof.LibPlainDot
import proofs.«168599_j60601988547144_1_alg».proof.Proof.LibOverAxis

noncomputable section

namespace Cert.Interaction.Block

open Cert.KernelIdeal Cert.Interaction Cert.DenseLayer Cert.BiasLayer Cert.SiluPerceptron Cert.OverAxis Idealize.ShloMosaic
  Idealize.ShloMosaic.ValueIdx

/-! ## The loaded blocks as the body rebinds them -/

section Loads

/-- A shape cast of a block to its own shape is the block. -/
theorem pay4_eq (x1 : Vec Ideal S512x128 .f32) : Gen.k0_pay4 (F := Ideal) x1 = x1 := shapeCast_self x1 _
theorem pay5_eq (x2 : Vec Ideal S512x3x128 .f32) : Gen.k0_pay5 (F := Ideal) x2 = x2 := shapeCast_self x2 _
theorem pay6_eq (x3 : Vec Ideal S512x3 .f32) : Gen.k0_pay6 (F := Ideal) x3 = x3 := shapeCast_self x3 _
theorem pay7_eq (x7 : Vec Ideal S1x384 .f32) : Gen.k0_pay7 (F := Ideal) x7 = x7 := shapeCast_self x7 _
theorem pay9_eq (x9 : Vec Ideal S1x128 .f32) : Gen.k0_pay9 (F := Ideal) x9 = x9 := shapeCast_self x9 _
theorem pay11_eq (x11 : Vec Ideal S1x384 .f32) : Gen.k0_pay11 (F := Ideal) x11 = x11 := shapeCast_self x11 _

/-- Rounding a block to a narrower format is the identity at the ideal values. -/
theorem pay8_eq (x8 : Vec Ideal S128x128 .f32) : Gen.k0_pay8 (F := Ideal) x8 = x8 := rfl
theorem pay10_eq (x10 : Vec Ideal S128x384 .f32) : Gen.k0_pay10 (F := Ideal) x10 = x10 := rfl

end Loads

/-! ## The filter's second product -/

/-- The filter perceptron up to its second product, without the second bias: the row product of the hidden layer of
    the radial features with the second weight matrix. -/
theorem pay12_apply (x0 : Vec Ideal S512x20 .f32) (x4 : Vec Ideal S20x128 .f32) (x5 : Vec Ideal S1x128 .f32)
    (x6 : Vec Ideal S128x384 .f32) (r : Fin 512) (q : Fin 384) :
    Gen.k0_pay12 (F := Ideal) x0 x4 x5 x6 (ix2 r q) = prodRow (hidden x0 x4 (rowOf x5)) x6 r q := by
  unfold Gen.k0_pay12
  rw [shapeCast_self, shapeCast_self]
  exact row_second_product_apply (truncf .bf16 x0 Gen.bitsLt_bf16_f32) (truncf .bf16 x4 Gen.bitsLt_bf16_f32) x5
    (truncf .bf16 x6 Gen.bitsLt_bf16_f32)
    (plainDot_of_axes dot_S512x20_S20x128_S512x128_1_0_0_1_n_n rfl rfl rfl rfl rfl rfl)
    (plainDot_of_axes dot_S512x128_S128x384_S512x384_1_0_0_1_n_n rfl rfl rfl rfl rfl rfl)
    none none Gen.broadcasts_S1x128_S512x128 Gen.bitsLt_bf16_f32 r q

/-! ## The message -/

/-- The body's product of the two perceptrons over the rebound blocks: the filter's second product plus its second
    bias row, times the scalar perceptron of the source features. -/
theorem pay1_apply (v4 : FVec Ideal S512x128 .f32) (v16 : FVec Ideal S1x384 .f32) (v18 : FVec Ideal S128x128 .bf16)
    (v20 : FVec Ideal S1x128 .f32) (v22 : FVec Ideal S128x384 .bf16) (v24 : FVec Ideal S1x384 .f32)
    (v31 : FVec Ideal S512x384 .f32) (r : Fin 512) (q : Fin 384) :
    Gen.k0_pay1 (F := Ideal) v4 v16 v18 v20 v22 v24 v31 (ix2 r q)
      = (v31 (ix2 r q) + rowOf v16 (ix1 q)) * mlp v4 v18 (rowOf v20) v22 (rowOf v24) (ix2 r q) := by
  unfold Gen.k0_pay1
  refine (mulf_apply _ _ _).trans (congrArg₂ (· * ·) ?_ ?_)
  · exact (addf_apply _ _ _).trans (congrArg (v31 (ix2 r q) + ·) (broadcastTo_1b_ab_apply v16 _ r q))
  · exact row_mlp_apply (truncf .bf16 v4 Gen.bitsLt_bf16_f32) v18 v20 v22 v24
      (plainDot_of_axes dot_S512x128_S128x128_S512x128_1_0_0_1_n_n rfl rfl rfl rfl rfl rfl)
      (plainDot_of_axes dot_S512x128_S128x384_S512x384_1_0_0_1_n_n rfl rfl rfl rfl rfl rfl)
      none none Gen.broadcasts_S1x128_S512x128 Gen.broadcasts_S1x384_S512x384 Gen.bitsLt_bf16_f32 r q

/-- Over the loaded blocks it is the specification's message, entry by entry. -/
theorem msg_block_apply (x0 : Vec Ideal S512x20 .f32) (x1 : Vec Ideal S512x128 .f32) (x4 : Vec Ideal S20x128 .f32)
    (x5 : Vec Ideal S1x128 .f32) (x6 : Vec Ideal S128x384 .f32) (x7 : Vec Ideal S1x384 .f32)
    (x8 : Vec Ideal S128x128 .f32) (x9 : Vec Ideal S1x128 .f32) (x10 : Vec Ideal S128x384 .f32)
    (x11 : Vec Ideal S1x384 .f32) (r : Fin 512) (q : Fin 384) :
    Gen.k0_pay1 (F := Ideal) (Gen.k0_pay4 x1) (Gen.k0_pay7 x7) (Gen.k0_pay8 x8) (Gen.k0_pay9 x9) (Gen.k0_pay10 x10)
        (Gen.k0_pay11 x11) (Gen.k0_pay12 x0 x4 x5 x6) (ix2 r q)
      = msg (Weights.ofRows x4 x5 x6 x7 x8 x9 x10 x11) x0 x1 (ix2 r q) := by
  rw [pay1_apply, pay12_apply, pay4_eq, pay7_eq, pay9_eq, pay11_eq]
  rfl

/-! ## The three column ranges -/

section Columns

variable (m : FVec Ideal S512x384 .f32) (r : Fin 512) (q : Fin 128)

theorem slice0_apply (h : S512x384.Slices ![0, 0] S512x128) :
    extractStridedSlice S512x128 ![0, 0] m h (ix2 r q) = m (ix2 r (col0 q)) :=
  slice2_axis1_apply 0 m h r q (col0 q) (Nat.zero_add _).symm

theorem slice1_apply (h : S512x384.Slices ![0, 128] S512x128) :
    extractStridedSlice S512x128 ![0, 128] m h (ix2 r q) = m (ix2 r (col1 q)) :=
  slice2_axis1_apply 128 m h r q (col1 q) rfl

theorem slice2_apply (h : S512x384.Slices ![0, 256] S512x128) :
    extractStridedSlice S512x128 ![0, 256] m h (ix2 r q) = m (ix2 r (col2 q)) :=
  slice2_axis1_apply 256 m h r q (col2 q) rfl

end Columns

/-! ## The two stored blocks -/

/-- The block stored into the vector update, over the rebound blocks: the message's second column range over the source
    vectors plus its third over the directions. -/
theorem pay3_apply (v4 : FVec Ideal S512x128 .f32) (v6 : FVec Ideal S512x3x128 .f32) (v8 : FVec Ideal S512x3 .f32)
    (v16 : FVec Ideal S1x384 .f32) (v18 : FVec Ideal S128x128 .bf16) (v20 : FVec Ideal S1x128 .f32)
    (v22 : FVec Ideal S128x384 .bf16) (v24 : FVec Ideal S1x384 .f32) (v31 : FVec Ideal S512x384 .f32)
    (r : Fin 512) (j : Fin 3) (q : Fin 128) :
    Gen.k0_pay3 (F := Ideal) v4 v6 v8 v16 v18 v20 v22 v24 v31 (ix3 r j q)
      = Gen.k0_pay1 (F := Ideal) v4 v16 v18 v20 v22 v24 v31 (ix2 r (col1 q)) * v6 (ix3 r j q)
        + Gen.k0_pay1 (F := Ideal) v4 v16 v18 v20 v22 v24 v31 (ix2 r (col2 q)) * v8 (ix2 r j) := by
  unfold Gen.k0_pay3
  refine (addf_apply _ _ _).trans (congrArg₂ (· + ·) ?_ ?_)
  · exact (mulf_apply _ _ _).trans (congrArg (· * v6 (ix3 r j q))
      ((over_components_apply _ _ _ r j q).trans (slice1_apply _ r q _)))
  · exact (mulf_apply _ _ _).trans (congrArg₂ (· * ·)
      ((over_components_apply _ _ _ r j q).trans (slice2_apply _ r q _)) (over_lanes_apply v8 _ _ r j q))

/-- The block stored into the scalar update is the specification's, entry by entry. -/
theorem pay_ds (x0 : Vec Ideal S512x20 .f32) (x1 : Vec Ideal S512x128 .f32) (x4 : Vec Ideal S20x128 .f32)
    (x5 : Vec Ideal S1x128 .f32) (x6 : Vec Ideal S128x384 .f32) (x7 : Vec Ideal S1x384 .f32)
    (x8 : Vec Ideal S128x128 .f32) (x9 : Vec Ideal S1x128 .f32) (x10 : Vec Ideal S128x384 .f32)
    (x11 : Vec Ideal S1x384 .f32) (r : Fin 512) (q : Fin 128) :
    Gen.k0_pay2 (F := Ideal) (Gen.k0_pay4 x1) (Gen.k0_pay7 x7) (Gen.k0_pay8 x8) (Gen.k0_pay9 x9) (Gen.k0_pay10 x10)
        (Gen.k0_pay11 x11) (Gen.k0_pay12 x0 x4 x5 x6) (ix2 r q)
      = dsOf (Weights.ofRows x4 x5 x6 x7 x8 x9 x10 x11) x0 x1 (ix2 r q) := by
  unfold Gen.k0_pay2
  exact (slice0_apply _ r q _).trans (msg_block_apply x0 x1 x4 x5 x6 x7 x8 x9 x10 x11 r (col0 q))

/-- The block stored into the vector update is the specification's, entry by entry. -/
theorem pay_dv (x0 : Vec Ideal S512x20 .f32) (x1 : Vec Ideal S512x128 .f32) (x2 : Vec Ideal S512x3x128 .f32)
    (x3 : Vec Ideal S512x3 .f32) (x4 : Vec Ideal S20x128 .f32) (x5 : Vec Ideal S1x128 .f32)
    (x6 : Vec Ideal S128x384 .f32) (x7 : Vec Ideal S1x384 .f32) (x8 : Vec Ideal S128x128 .f32)
    (x9 : Vec Ideal S1x128 .f32) (x10 : Vec Ideal S128x384 .f32) (x11 : Vec Ideal S1x384 .f32)
    (r : Fin 512) (j : Fin 3) (q : Fin 128) :
    Gen.k0_pay3 (F := Ideal) (Gen.k0_pay4 x1) (Gen.k0_pay5 x2) (Gen.k0_pay6 x3) (Gen.k0_pay7 x7) (Gen.k0_pay8 x8)
        (Gen.k0_pay9 x9) (Gen.k0_pay10 x10) (Gen.k0_pay11 x11) (Gen.k0_pay12 x0 x4 x5 x6) (ix3 r j q)
      = dvOf (Weights.ofRows x4 x5 x6 x7 x8 x9 x10 x11) x0 x1 x2 x3 (ix3 r j q) := by
  rw [pay3_apply, msg_block_apply, msg_block_apply, pay5_eq, pay6_eq]
  rfl

end Cert.Interaction.Block

end
-- ==== Proof.Blocks.lean ====
/-
  The interaction kernel's windows on its grid of 782 points, one point per block of 512 edges.

  The four edge-indexed inputs (radial features, gathered source scalars, gathered source vectors, directions) and the
  two results are cut along their first axis into blocks of 512 rows, and point `t` works on block `t`: row `r` of a
  block at point `t` is row `512 t + r` of its array. The eight weight arrays are passed whole at every point. The
  index maps are decided once over the grid; everything else is arithmetic on coordinates.
-/
import proofs.«168599_j60601988547144_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Interaction.Kernel

open Cert.KernelIdeal Cert.KernelIdeal.Gen

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The grid has one point per block of 512 edges: the four edge-indexed inputs and the two outputs are at block
    `t` of their first axis at point `t`. -/
theorem idx_edges : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_12.index t (0 : Fin 2) = t.val ∧ win0_12.index t (1 : Fin 2) = 0
    ∧ win0_13.index t (0 : Fin 3) = t.val ∧ win0_13.index t (1 : Fin 3) = 0 ∧ win0_13.index t (2 : Fin 3) = 0 :=
  (by decide +kernel : ∀ t : Fin grid0.N, _)

/-- The eight weight windows are at block 0 at every point. -/
theorem idx_weights : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- Edge `512 t + r` of the padded edge list, for a row `r` of block `t`. -/
def edgeOf (t : Fin cfg0.N) (r : Fin 512) : Fin 400384 :=
  ⟨512 * t.val + r.val, by have h : t.val < 782 := Nat.lt_of_lt_of_eq t.isLt N_0; have := r.isLt; omega⟩

theorem edgeOf_val (t : Fin cfg0.N) (r : Fin 512) : (edgeOf t r).val = 512 * t.val + r.val := rfl

/-- Row `r` of the radial features' block at point `t` is row `512 t + r` of the padded array. -/
theorem iblk0_apply (c : Dev nD) (t : Fin cfg0.N) (r : Fin 512) (k : Fin 20) :
    (iblk m c 0 t : Vec Ideal S512x20 .f32) (ix2 r k) = (V m c main_v18 : S400384x20.Idx → EReal) (ix2 (edgeOf t r) k) := by
  have h0 : win0_0.index t (0 : Fin 2) = t.val := (idx_edges t).1
  have h1 : win0_0.index t (1 : Fin 2) = 0 := (idx_edges t).2.1
  unfold iblk
  rw [View.read_apply]
  show V m c main_v18 _ = V m c main_v18 _
  congr 1
  funext a
  apply Fin.ext
  match a with
  | ⟨0, _⟩ => show win0_0.index t (0 : Fin 2) * 512 + 1 * r.val = 512 * t.val + r.val; rw [h0]; omega
  | ⟨1, _⟩ => show win0_0.index t (1 : Fin 2) * 20 + 1 * k.val = k.val; rw [h1]; omega

/-- The same for the gathered source scalars. -/
theorem iblk1_apply (c : Dev nD) (t : Fin cfg0.N) (r : Fin 512) (k : Fin 128) :
    (iblk m c 1 t : Vec Ideal S512x128 .f32) (ix2 r k) = (V m c main_v19 : S400384x128.Idx → EReal) (ix2 (edgeOf t r) k) := by
  have h0 : win0_1.index t (0 : Fin 2) = t.val := (idx_edges t).2.2.1
  have h1 : win0_1.index t (1 : Fin 2) = 0 := (idx_edges t).2.2.2.1
  unfold iblk
  rw [View.read_apply]
  show V m c main_v19 _ = V m c main_v19 _
  congr 1
  funext a
  apply Fin.ext
  match a with
  | ⟨0, _⟩ => show win0_1.index t (0 : Fin 2) * 512 + 1 * r.val = 512 * t.val + r.val; rw [h0]; omega
  | ⟨1, _⟩ => show win0_1.index t (1 : Fin 2) * 128 + 1 * k.val = k.val; rw [h1]; omega

/-- The same for the gathered source vectors. -/
theorem iblk2_apply (c : Dev nD) (t : Fin cfg0.N) (r : Fin 512) (j : Fin 3) (k : Fin 128) :
    (iblk m c 2 t : Vec Ideal S512x3x128 .f32) (ix3 r j k)
      = (V m c main_v20 : S400384x3x128.Idx → EReal) (ix3 (edgeOf t r) j k) := by
  have h0 : win0_2.index t (0 : Fin 3) = t.val := (idx_edges t).2.2.2.2.1
  have h1 : win0_2.index t (1 : Fin 3) = 0 := (idx_edges t).2.2.2.2.2.1
  have h2 : win0_2.index t (2 : Fin 3) = 0 := (idx_edges t).2.2.2.2.2.2.1
  unfold iblk
  rw [View.read_apply]
  show V m c main_v20 _ = V m c main_v20 _
  congr 1
  funext a
  apply Fin.ext
  match a with
  | ⟨0, _⟩ => show win0_2.index t (0 : Fin 3) * 512 + 1 * r.val = 512 * t.val + r.val; rw [h0]; omega
  | ⟨1, _⟩ => show win0_2.index t (1 : Fin 3) * 3 + 1 * j.val = j.val; rw [h1]; omega
  | ⟨2, _⟩ => show win0_2.index t (2 : Fin 3) * 128 + 1 * k.val = k.val; rw [h2]; omega

/-- The same for the edge directions. -/
theorem iblk3_apply (c : Dev nD) (t : Fin cfg0.N) (r : Fin 512) (k : Fin 3) :
    (iblk m c 3 t : Vec Ideal S512x3 .f32) (ix2 r k) = (V m c main_v21 : S400384x3.Idx → EReal) (ix2 (edgeOf t r) k) := by
  have h0 : win0_3.index t (0 : Fin 2) = t.val := (idx_edges t).2.2.2.2.2.2.2.1
  have h1 : win0_3.index t (1 : Fin 2) = 0 := (idx_edges t).2.2.2.2.2.2.2.2.1
  unfold iblk
  rw [View.read_apply]
  show V m c main_v21 _ = V m c main_v21 _
  congr 1
  funext a
  apply Fin.ext
  match a with
  | ⟨0, _⟩ => show win0_3.index t (0 : Fin 2) * 512 + 1 * r.val = 512 * t.val + r.val; rw [h0]; omega
  | ⟨1, _⟩ => show win0_3.index t (1 : Fin 2) * 3 + 1 * k.val = k.val; rw [h1]; omega

/-! ## The weight windows: the whole array at every point -/

/-- Two rank-2 indices with the same coordinates are the same index. -/
theorem idx2_ext {a b : ℕ} (i j : (⟨2, ![a, b]⟩ : Shape).Idx) (h0 : (i 0).val = (j 0).val) (h1 : (i 1).val = (j 1).val) :
    i = j :=
  funext fun d => Fin.ext (by
    match d with
    | ⟨0, _⟩ => exact h0
    | ⟨1, _⟩ => exact h1)

/-- The first filter matrix. -/
theorem iblk4_eq (c : Dev nD) (t : Fin cfg0.N) :
    (iblk m c 4 t : Vec Ideal S20x128 .f32) = (V m c main_arg5 : S20x128.Idx → EReal) :=
  funext fun y => congrArg (V m c main_arg5 : S20x128.Idx → EReal) (idx2_ext _ y
    (show win0_4.index t (0 : Fin 2) * 20 + 1 * (y 0).val = (y 0).val by rw [(idx_weights t).1]; omega)
    (show win0_4.index t (1 : Fin 2) * 128 + 1 * (y 1).val = (y 1).val by rw [(idx_weights t).2.1]; omega))

/-- The first filter bias, a `[1, 128]` row. -/
theorem iblk5_eq (c : Dev nD) (t : Fin cfg0.N) :
    (iblk m c 5 t : Vec Ideal S1x128 .f32) = (V m c main_v22 : S1x128.Idx → EReal) :=
  funext fun y => congrArg (V m c main_v22 : S1x128.Idx → EReal) (idx2_ext _ y
    (show win0_5.index t (0 : Fin 2) * 1 + 1 * (y 0).val = (y 0).val by rw [(idx_weights t).2.2.1]; omega)
    (show win0_5.index t (1 : Fin 2) * 128 + 1 * (y 1).val = (y 1).val by rw [(idx_weights t).2.2.2.1]; omega))

/-- The second filter matrix. -/
theorem iblk6_eq (c : Dev nD) (t : Fin cfg0.N) :
    (iblk m c 6 t : Vec Ideal S128x384 .f32) = (V m c main_arg7 : S128x384.Idx → EReal) :=
  funext fun y => congrArg (V m c main_arg7 : S128x384.Idx → EReal) (idx2_ext _ y
    (show win0_6.index t (0 : Fin 2) * 128 + 1 * (y 0).val = (y 0).val by rw [(idx_weights t).2.2.2.2.1]; omega)
    (show win0_6.index t (1 : Fin 2) * 384 + 1 * (y 1).val = (y 1).val by rw [(idx_weights t).2.2.2.2.2.1]; omega))

/-- The second filter bias, a `[1, 384]` row. -/
theorem iblk7_eq (c : Dev nD) (t : Fin cfg0.N) :
    (iblk m c 7 t : Vec Ideal S1x384 .f32) = (V m c main_v23 : S1x384.Idx → EReal) :=
  funext fun y => congrArg (V m c main_v23 : S1x384.Idx → EReal) (idx2_ext _ y
    (show win0_7.index t (0 : Fin 2) * 1 + 1 * (y 0).val = (y 0).val by rw [(idx_weights t).2.2.2.2.2.2.1]; omega)
    (show win0_7.index t (1 : Fin 2) * 384 + 1 * (y 1).val = (y 1).val by rw [(idx_weights t).2.2.2.2.2.2.2.1]; omega))

/-- The first scalar matrix. -/
theorem iblk8_eq (c : Dev nD) (t : Fin cfg0.N) :
    (iblk m c 8 t : Vec Ideal S128x128 .f32) = (V m c main_arg9 : S128x128.Idx → EReal) :=
  funext fun y => congrArg (V m c main_arg9 : S128x128.Idx → EReal) (idx2_ext _ y
    (show win0_8.index t (0 : Fin 2) * 128 + 1 * (y 0).val = (y 0).val by rw [(idx_weights t).2.2.2.2.2.2.2.2.1]; omega)
    (show win0_8.index t (1 : Fin 2) * 128 + 1 * (y 1).val = (y 1).val by rw [(idx_weights t).2.2.2.2.2.2.2.2.2.1]; omega))

/-- The first scalar bias, a `[1, 128]` row. -/
theorem iblk9_eq (c : Dev nD) (t : Fin cfg0.N) :
    (iblk m c 9 t : Vec Ideal S1x128 .f32) = (V m c main_v24 : S1x128.Idx → EReal) :=
  funext fun y => congrArg (V m c main_v24 : S1x128.Idx → EReal) (idx2_ext _ y
    (show win0_9.index t (0 : Fin 2) * 1 + 1 * (y 0).val = (y 0).val by rw [(idx_weights t).2.2.2.2.2.2.2.2.2.2.1]; omega)
    (show win0_9.index t (1 : Fin 2) * 128 + 1 * (y 1).val = (y 1).val by
      rw [(idx_weights t).2.2.2.2.2.2.2.2.2.2.2.1]; omega))

/-- The second scalar matrix. -/
theorem iblk10_eq (c : Dev nD) (t : Fin cfg0.N) :
    (iblk m c 10 t : Vec Ideal S128x384 .f32) = (V m c main_arg11 : S128x384.Idx → EReal) :=
  funext fun y => congrArg (V m c main_arg11 : S128x384.Idx → EReal) (idx2_ext _ y
    (show win0_10.index t (0 : Fin 2) * 128 + 1 * (y 0).val = (y 0).val by
      rw [(idx_weights t).2.2.2.2.2.2.2.2.2.2.2.2.1]; omega)
    (show win0_10.index t (1 : Fin 2) * 384 + 1 * (y 1).val = (y 1).val by
      rw [(idx_weights t).2.2.2.2.2.2.2.2.2.2.2.2.2.1]; omega))

/-- The second scalar bias, a `[1, 384]` row. -/
theorem iblk11_eq (c : Dev nD) (t : Fin cfg0.N) :
    (iblk m c 11 t : Vec Ideal S1x384 .f32) = (V m c main_v25 : S1x384.Idx → EReal) :=
  funext fun y => congrArg (V m c main_v25 : S1x384.Idx → EReal) (idx2_ext _ y
    (show win0_11.index t (0 : Fin 2) * 1 + 1 * (y 0).val = (y 0).val by
      rw [(idx_weights t).2.2.2.2.2.2.2.2.2.2.2.2.2.2.1]; omega)
    (show win0_11.index t (1 : Fin 2) * 384 + 1 * (y 1).val = (y 1).val by
      rw [(idx_weights t).2.2.2.2.2.2.2.2.2.2.2.2.2.2.2]; omega))

end Cert.Interaction.Kernel

end
-- ==== Proof.KernelArrays.lean ====
/-
  What the interaction kernel's region leaves in its two results: the specification's per-edge updates of all 400384
  padded edges.

  At point `t` the body's two stores hold, at row `r`, the specification's `ds` and `dv` of row `r` of the point's
  blocks; those rows are rows `512 t + r` of the arrays the region finds, and an entry of the specification depends on
  its inputs only through that row. The 782 blocks tile each result, so after the run the first result is `dsOf` and
  the second `dvOf` of the whole padded arrays.
-/
import proofs.«168599_j60601988547144_1_alg».proof.Proof.Gen.KernelIdeal.Frame
import proofs.«168599_j60601988547144_1_alg».proof.Proof.Spec
import proofs.«168599_j60601988547144_1_alg».proof.Proof.Payload
import proofs.«168599_j60601988547144_1_alg».proof.Proof.Blocks
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Interaction.Kernel

open Cert.KernelIdeal Cert.KernelIdeal.Gen Cert.Interaction Cert.DenseLayer Cert.BiasLayer

variable (m : (ℓ : Loc nD τ sig) → Buf (Elt Ideal) ℓ)

/-- The weights as the region finds them: the four matrices, and the four biases as `[1, n]` rows. -/
abbrev Wk (c : Dev nD) : Weights :=
  Weights.ofRows (V m c main_arg5) (V m c main_v22) (V m c main_arg7) (V m c main_v23) (V m c main_arg9) (V m c main_v24)
    (V m c main_arg11) (V m c main_v25)

/-- The scalar update of every padded edge, from the arrays the region finds. -/
def G12 (c : Dev nD) : S400384x128.Idx → EReal := dsOf (Wk m c) (V m c main_v18) (V m c main_v19)

/-- The vector update of every padded edge, from the arrays the region finds. -/
def G13 (c : Dev nD) : S400384x3x128.Idx → EReal :=
  dvOf (Wk m c) (V m c main_v18) (V m c main_v19) (V m c main_v20) (V m c main_v21)

/-- What point `t` writes back into the first result is block `t` of `G12`: the body's payload at row `r` is the
    specification at that row of the point's blocks, and those rows are rows `512 t + r` of the arrays. -/
theorem flushed12_eq (c : Dev nD) (t : Fin cfg0.N) :
    (dats m 0 c).flushed 12 t = ((cfg0.win 12).blk t).view.read (Elt Ideal) (G12 m c) := by
  show (cfg0.win 12).cut (grid0.coords t) ((dats m 0 c).after 12 t) = _
  rw [after0_12]
  unfold out0_12
  rw [View.canon_unit_zero hz2]
  simp only [View.ld_unit_zero (S := S512x20) hz2, View.ld_unit_zero (S := S512x128) hz2, View.ld_unit_zero (S := S20x128) hz2,
    View.ld_unit_zero (S := S1x128) hz2, View.ld_unit_zero (S := S128x384) hz2, View.ld_unit_zero (S := S1x384) hz2,
    View.ld_unit_zero (S := S128x128) hz2]
  funext j
  obtain ⟨r, q, rfl⟩ : ∃ (r : Fin 512) (q : Fin 128), j = ix2 r q := ⟨j 0, j 1, eq_ix2 j⟩
  have h0 : win0_12.index t (0 : Fin 2) = t.val := (idx_edges t).2.2.2.2.2.2.2.2.2.1
  have h1 : win0_12.index t (1 : Fin 2) = 0 := (idx_edges t).2.2.2.2.2.2.2.2.2.2.1
  have he : ((cfg0.win 12).blk t).view.emb (ix2 r q) = (ix2 (edgeOf t r) q : S400384x128.Idx) := by
    funext a
    apply Fin.ext
    match a with
    | ⟨0, _⟩ => show win0_12.index t (0 : Fin 2) * 512 + 1 * r.val = 512 * t.val + r.val; rw [h0]; omega
    | ⟨1, _⟩ => show win0_12.index t (1 : Fin 2) * 128 + 1 * q.val = q.val; rw [h1]; omega
  refine (Block.pay_ds (iblk m c 0 t) (iblk m c 1 t) (iblk m c 4 t) (iblk m c 5 t) (iblk m c 6 t) (iblk m c 7 t) (iblk m c 8 t)
    (iblk m c 9 t) (iblk m c 10 t) (iblk m c 11 t) r q).trans ?_
  rw [View.read_apply, he, iblk4_eq m c t, iblk5_eq m c t, iblk6_eq m c t, iblk7_eq m c t, iblk8_eq m c t, iblk9_eq m c t,
    iblk10_eq m c t, iblk11_eq m c t]
  exact dsOf_congr (Wk m c) _ _ (V m c main_v18) (V m c main_v19) r (edgeOf t r) (fun k => iblk0_apply m c t r k)
    (fun k => iblk1_apply m c t r k) q

/-- What point `t` writes back into the second result is block `t` of `G13`. -/
theorem flushed13_eq (c : Dev nD) (t : Fin cfg0.N) :
    (dats m 0 c).flushed 13 t = ((cfg0.win 13).blk t).view.read (Elt Ideal) (G13 m c) := by
  show (cfg0.win 13).cut (grid0.coords t) ((dats m 0 c).after 13 t) = _
  rw [after0_13]
  unfold out0_13
  rw [View.canon_unit_zero hz3]
  simp only [View.ld_unit_zero (S := S512x20) hz2, View.ld_unit_zero (S := S512x128) hz2, View.ld_unit_zero (S := S20x128) hz2,
    View.ld_unit_zero (S := S1x128) hz2, View.ld_unit_zero (S := S128x384) hz2, View.ld_unit_zero (S := S1x384) hz2,
    View.ld_unit_zero (S := S128x128) hz2, View.ld_unit_zero (S := S512x3x128) hz3, View.ld_unit_zero (S := S512x3) hz2]
  funext j
  obtain ⟨r, d, q, rfl⟩ : ∃ (r : Fin 512) (d : Fin 3) (q : Fin 128), j = ix3 r d q := ⟨j 0, j 1, j 2, eq_ix3 j⟩
  have h0 : win0_13.index t (0 : Fin 3) = t.val := (idx_edges t).2.2.2.2.2.2.2.2.2.2.2.1
  have h1 : win0_13.index t (1 : Fin 3) = 0 := (idx_edges t).2.2.2.2.2.2.2.2.2.2.2.2.1
  have h2 : win0_13.index t (2 : Fin 3) = 0 := (idx_edges t).2.2.2.2.2.2.2.2.2.2.2.2.2
  have he : ((cfg0.win 13).blk t).view.emb (ix3 r d q) = (ix3 (edgeOf t r) d q : S400384x3x128.Idx) := by
    funext a
    apply Fin.ext
    match a with
    | ⟨0, _⟩ => show win0_13.index t (0 : Fin 3) * 512 + 1 * r.val = 512 * t.val + r.val; rw [h0]; omega
    | ⟨1, _⟩ => show win0_13.index t (1 : Fin 3) * 3 + 1 * d.val = d.val; rw [h1]; omega
    | ⟨2, _⟩ => show win0_13.index t (2 : Fin 3) * 128 + 1 * q.val = q.val; rw [h2]; omega
  refine (Block.pay_dv (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) r d q).trans ?_
  rw [View.read_apply, he, iblk4_eq m c t, iblk5_eq m c t, iblk6_eq m c t, iblk7_eq m c t, iblk8_eq m c t, iblk9_eq m c t,
    iblk10_eq m c t, iblk11_eq m c t]
  exact dvOf_congr (Wk m c) _ _ _ _ (V m c main_v18) (V m c main_v19) (V m c main_v20) (V m c main_v21) r (edgeOf t r)
    (fun k => iblk0_apply m c t r k) (fun k => iblk1_apply m c t r k) (fun d' k => iblk2_apply m c t r d' k)
    (fun k => iblk3_apply m c t r k) d q

/-- An index of the first result is in point `t`'s block iff each coordinate is in the block's range on its axis. -/
theorem mem_blk12 (t : Fin cfg0.N) (i : S400384x128.Idx) :
    i ∈ ((cfg0.win 12).blk t).view.set ↔ ∀ a : Fin 2, win0_12.index t a * S512x128.size a ≤ (i a).val
      ∧ (i a).val < win0_12.index t a * S512x128.size a + S512x128.size a := by
  show i ∈ ((View.whole main_v26_0).slice (win0_12.rect t)).set ↔ _
  rw [View.set_slice_whole, Rect.mem_set_unit]
  exact Iff.rfl

theorem mem_blk13 (t : Fin cfg0.N) (i : S400384x3x128.Idx) :
    i ∈ ((cfg0.win 13).blk t).view.set ↔ ∀ a : Fin 3, win0_13.index t a * S512x3x128.size a ≤ (i a).val
      ∧ (i a).val < win0_13.index t a * S512x3x128.size a + S512x3x128.size a := by
  show i ∈ ((View.whole main_v26_1).slice (win0_13.rect t)).set ↔ _
  rw [View.set_slice_whole, Rect.mem_set_unit]
  exact Iff.rfl

/-- The block of 512 edges that holds edge `e`. -/
def pointOf (e : Fin 400384) : Fin cfg0.N :=
  ⟨e.val / 512, by rw [show cfg0.N = 782 from N_0]; have := e.isLt; omega⟩

/-- Every entry of the first result lies in the block of the point `e / 512`. -/
theorem cover12 (i : S400384x128.Idx) :
    ∃ t : Fin cfg0.N, (cfg0.win 12).flush t = true ∧ i ∈ ((cfg0.win 12).blk t).view.set := by
  have hi0 : (i 0).val < 400384 := (i 0).isLt
  have hi1 : (i 1).val < 128 := (i 1).isLt
  have h0 : win0_12.index (pointOf (i 0)) (0 : Fin 2) = (i 0).val / 512 := (idx_edges (pointOf (i 0))).2.2.2.2.2.2.2.2.2.1
  have h1 : win0_12.index (pointOf (i 0)) (1 : Fin 2) = 0 := (idx_edges (pointOf (i 0))).2.2.2.2.2.2.2.2.2.2.1
  refine ⟨pointOf (i 0), flush0_12 _, ?_⟩
  rw [mem_blk12]
  intro a
  match a with
  | ⟨0, _⟩ =>
    show win0_12.index (pointOf (i 0)) (0 : Fin 2) * 512 ≤ (i 0).val
      ∧ (i 0).val < win0_12.index (pointOf (i 0)) (0 : Fin 2) * 512 + 512
    rw [h0]; omega
  | ⟨1, _⟩ =>
    show win0_12.index (pointOf (i 0)) (1 : Fin 2) * 128 ≤ (i 1).val
      ∧ (i 1).val < win0_12.index (pointOf (i 0)) (1 : Fin 2) * 128 + 128
    rw [h1]; omega

theorem cover13 (i : S400384x3x128.Idx) :
    ∃ t : Fin cfg0.N, (cfg0.win 13).flush t = true ∧ i ∈ ((cfg0.win 13).blk t).view.set := by
  have hi0 : (i 0).val < 400384 := (i 0).isLt
  have hi1 : (i 1).val < 3 := (i 1).isLt
  have hi2 : (i 2).val < 128 := (i 2).isLt
  have h0 : win0_13.index (pointOf (i 0)) (0 : Fin 3) = (i 0).val / 512 := (idx_edges (pointOf (i 0))).2.2.2.2.2.2.2.2.2.2.2.1
  have h1 : win0_13.index (pointOf (i 0)) (1 : Fin 3) = 0 := (idx_edges (pointOf (i 0))).2.2.2.2.2.2.2.2.2.2.2.2.1
  have h2 : win0_13.index (pointOf (i 0)) (2 : Fin 3) = 0 := (idx_edges (pointOf (i 0))).2.2.2.2.2.2.2.2.2.2.2.2.2
  refine ⟨pointOf (i 0), flush0_13 _, ?_⟩
  rw [mem_blk13]
  intro a
  match a with
  | ⟨0, _⟩ =>
    show win0_13.index (pointOf (i 0)) (0 : Fin 3) * 512 ≤ (i 0).val
      ∧ (i 0).val < win0_13.index (pointOf (i 0)) (0 : Fin 3) * 512 + 512
    rw [h0]; omega
  | ⟨1, _⟩ =>
    show win0_13.index (pointOf (i 0)) (1 : Fin 3) * 3 ≤ (i 1).val
      ∧ (i 1).val < win0_13.index (pointOf (i 0)) (1 : Fin 3) * 3 + 3
    rw [h1]; omega
  | ⟨2, _⟩ =>
    show win0_13.index (pointOf (i 0)) (2 : Fin 3) * 128 ≤ (i 2).val
      ∧ (i 2).val < win0_13.index (pointOf (i 0)) (2 : Fin 3) * 128 + 128
    rw [h2]; omega

/-- After the run the first result holds the scalar update of every padded edge. -/
theorem final12 (c : Dev nD) : (dats m 0 c).arrAt 12 cfg0.N = G12 m c :=
  (dats m 0 c).arrAt_eq_of_cover 12 (G12 m c) (fun t _ => flushed12_eq m c t) cover12

/-- After the run the second result holds the vector update of every padded edge. -/
theorem final13 (c : Dev nD) : (dats m 0 c).arrAt 13 cfg0.N = G13 m c :=
  (dats m 0 c).arrAt_eq_of_cover 13 (G13 m c) (fun t _ => flushed13_eq m c t) cover13

end Cert.Interaction.Kernel

end
-- ==== Proof.HostValues.lean ====
/-
  The host lines of the interaction kernel's program around its one region, read as values.

  Before the region the program takes the source and destination rows of the edge list, gathers the source nodes'
  scalar and vector features, appends 384 zero rows to each of the four edge-indexed arrays (so that 400000 edges
  fill 782 blocks of 512), and reshapes the four bias vectors into `[1, n]` rows. After it, it keeps the first
  400000 rows of the region's two results, scatter-adds them by destination node into zero arrays and adds the node
  features. The gathers and the destination indices are stated as the reference program's own stages of the same
  arguments: both programs write them with the same operations.
-/
import proofs.«168599_j60601988547144_1_alg».proof.Proof.Gen.KernelIdeal.Frame
import proofs.«168599_j60601988547144_1_alg».proof.Proof.Gen.ReferenceIdeal.Read
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.Interaction.Kernel

open Cert.KernelIdeal Cert.KernelIdeal.Gen

variable (m : (ℓ : Loc nD τ sig) → Buf (Elt Ideal) ℓ)

/-! ## The arrays the region finds, from the arguments -/

/-- The padded radial features: the argument with 384 zero rows appended. -/
theorem V_v18 (c : Dev nD) : (V m c main_v18 : S400384x20.Idx → EReal)
    = pad S400384x20 ![0, 0] ![384, 0] ![0, 0] (m ((c : Thread nD τ).loc main_arg3))
        (sitofp (F := Ideal) .f32 (constantI S_ 32 0#32)) pads_S400000x20_S400384x20_03840_000 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

/-- The padded source scalars: the gathered rows with 384 zero rows appended. The gather is the reference's gather of
    the same arguments: the two programs prepare the indices (row 0 of the edge list, a negative entry wrapped by the
    node count) and gather by the same operations. -/
theorem V_v19 (c : Dev nD) : (V m c main_v19 : S400384x128.Idx → EReal)
    = pad S400384x128 ![0, 0] ![384, 0] ![0, 0] (Cert.ReferenceIdeal.Read.val_main_v19 (F := Ideal) (m ((c : Thread nD τ).loc main_arg0)) (m ((c : Thread nD τ).loc main_arg2)))
        (sitofp (F := Ideal) .f32 (constantI S_ 32 0#32)) pads_S400000x128_S400384x128_03840_000 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

/-- The padded source vectors, likewise. -/
theorem V_v20 (c : Dev nD) : (V m c main_v20 : S400384x3x128.Idx → EReal)
    = pad S400384x3x128 ![0, 0, 0] ![384, 0, 0] ![0, 0, 0] (Cert.ReferenceIdeal.Read.val_main_v40 (F := Ideal) (m ((c : Thread nD τ).loc main_arg1)) (m ((c : Thread nD τ).loc main_arg2)))
        (sitofp (F := Ideal) .f32 (constantI S_ 32 0#32)) pads_S400000x3x128_S400384x3x128_03840_000_000 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

/-- The padded edge directions. -/
theorem V_v21 (c : Dev nD) : (V m c main_v21 : S400384x3.Idx → EReal)
    = pad S400384x3 ![0, 0] ![384, 0] ![0, 0] (m ((c : Thread nD τ).loc main_arg4))
        (sitofp (F := Ideal) .f32 (constantI S_ 32 0#32)) pads_S400000x3_S400384x3_03840_000 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

/-- The four biases as `[1, n]` rows. -/
theorem V_v22 (c : Dev nD) : (V m c main_v22 : S1x128.Idx → EReal)
    = shapeCast S1x128 (m ((c : Thread nD τ).loc main_arg6)) shapeCasts_S128_S1x128 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl
theorem V_v23 (c : Dev nD) : (V m c main_v23 : S1x384.Idx → EReal)
    = shapeCast S1x384 (m ((c : Thread nD τ).loc main_arg8)) shapeCasts_S384_S1x384 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl
theorem V_v24 (c : Dev nD) : (V m c main_v24 : S1x128.Idx → EReal)
    = shapeCast S1x128 (m ((c : Thread nD τ).loc main_arg10)) shapeCasts_S128_S1x128 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl
theorem V_v25 (c : Dev nD) : (V m c main_v25 : S1x384.Idx → EReal)
    = shapeCast S1x384 (m ((c : Thread nD τ).loc main_arg12)) shapeCasts_S384_S1x384 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

/-- The destination indices: row 1 of the edge list. -/
theorem V_v3 (c : Dev nD) : V m c main_v3
    = Cert.ReferenceIdeal.Read.val_main_v3 (F := Ideal) (m ((c : Thread nD τ).loc main_arg2)) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

/-! ## The lines after the region -/

/-- The first result of @main from any contents `X` of the buffers when the lines after the region start: the node
    scalars plus the scatter-add, by destination node, of the first 400000 rows of the region's first result. -/
theorem tail35_of (X : Valuation τ sig (Elt Ideal)) :
    (StableHlo.after hostOps1 X (Proc.devRef .tc main_v35) : S16384x128.Idx → EReal)
      = addf (F := Ideal) (X (Proc.devRef .tc main_arg0))
          (Host.scatterAdd scatter_S16384x128_S400000x1_S400000x128_1_0_0_1
            (broadcastInDim S16384x128 ![] bcast_S_S16384x128 (constant (F := Ideal) S_ .f32 0x00000000#32))
            (broadcastInDim S400000x1 ![0] bcast_S400000_S400000x1_0 (X (Proc.devRef .tc main_v3)))
            (extractStridedSlice S400000x128 ![0, 0] (X (Proc.devRef .tc main_v26_0)) slices_S400384x128_S400000x128_0_0)) := by
  after_results

/-- The second result of @main likewise, from the node vectors and the region's second result. -/
theorem tail36_of (X : Valuation τ sig (Elt Ideal)) :
    (StableHlo.after hostOps1 X (Proc.devRef .tc main_v36) : S16384x3x128.Idx → EReal)
      = addf (F := Ideal) (X (Proc.devRef .tc main_arg1))
          (Host.scatterAdd scatter_S16384x3x128_S400000x1_S400000x3x128_12_0_0_1
            (broadcastInDim S16384x3x128 ![] bcast_S_S16384x3x128 (constant (F := Ideal) S_ .f32 0x00000000#32))
            (broadcastInDim S400000x1 ![0] bcast_S400000_S400000x1_0 (X (Proc.devRef .tc main_v3)))
            (extractStridedSlice S400000x3x128 ![0, 0, 0] (X (Proc.devRef .tc main_v26_1)) slices_S400384x3x128_S400000x3x128_0_0_0)) := by
  after_results

/-- After the run: the lines after the region read the node scalars and the destination indices as the region found
    them, and the region's first result as the run left it. -/
theorem tail35 (c : Dev nD) :
    (Pipeline.afterTail₀ cfgs (dats m) 0 (V0 m) [hostOps1] c main_v35 : S16384x128.Idx → EReal)
      = addf (F := Ideal) (m ((c : Thread nD τ).loc main_arg0))
          (Host.scatterAdd scatter_S16384x128_S400000x1_S400000x128_1_0_0_1
            (broadcastInDim S16384x128 ![] bcast_S_S16384x128 (constant (F := Ideal) S_ .f32 0x00000000#32))
            (broadcastInDim S400000x1 ![0] bcast_S400000_S400000x1_0 (V m c main_v3))
            (extractStridedSlice S400000x128 ![0, 0] ((dats m 0 c).arrAt 12 cfg0.N : S400384x128.Idx → EReal)
              slices_S400384x128_S400000x128_0_0)) := by
  unfold Pipeline.afterTail₀
  show StableHlo.after hostOps1 _ (Proc.devRef .tc main_v35) = _
  rw [tail35_of, Pipeline.withArrays_arr spec0 launch0.win.arr_inj c _ _ 12,
    Pipeline.withArrays_of_ne spec0 c _ _ main_arg0 (by decide), Pipeline.withArrays_of_ne spec0 c _ _ main_v3 (by decide)]
  show addf (F := Ideal) (V m c main_arg0) _ = _
  rw [V_main_arg0]

theorem tail36 (c : Dev nD) :
    (Pipeline.afterTail₀ cfgs (dats m) 0 (V0 m) [hostOps1] c main_v36 : S16384x3x128.Idx → EReal)
      = addf (F := Ideal) (m ((c : Thread nD τ).loc main_arg1))
          (Host.scatterAdd scatter_S16384x3x128_S400000x1_S400000x3x128_12_0_0_1
            (broadcastInDim S16384x3x128 ![] bcast_S_S16384x3x128 (constant (F := Ideal) S_ .f32 0x00000000#32))
            (broadcastInDim S400000x1 ![0] bcast_S400000_S400000x1_0 (V m c main_v3))
            (extractStridedSlice S400000x3x128 ![0, 0, 0] ((dats m 0 c).arrAt 13 cfg0.N : S400384x3x128.Idx → EReal)
              slices_S400384x3x128_S400000x3x128_0_0_0)) := by
  unfold Pipeline.afterTail₀
  show StableHlo.after hostOps1 _ (Proc.devRef .tc main_v36) = _
  rw [tail36_of, Pipeline.withArrays_arr spec0 launch0.win.arr_inj c _ _ 13,
    Pipeline.withArrays_of_ne spec0 c _ _ main_arg1 (by decide), Pipeline.withArrays_of_ne spec0 c _ _ main_v3 (by decide)]
  show addf (F := Ideal) (V m c main_arg1) _ = _
  rw [V_main_arg1]

end Cert.Interaction.Kernel

end
-- ==== Proof.Bridge.lean ====
/-
  The interaction kernel's two results are the reference's, as functions of the arguments.

  The region leaves the specification's per-edge updates of the padded arrays (KernelArrays); the lines after it keep
  the rows of the 400000 real edges. For such an edge `e` the padded arrays' row `e` is the unpadded arrays' row `e`,
  the `[1, n]` bias rows read back as the bias vectors, and an entry of the specification depends on its inputs only
  through that row: so the kept rows are the specification's updates of the unpadded arrays, which is what the reference
  computes (RefStages). Both programs then scatter-add by the same destination indices into zeros and add the node
  features, with the same operations: the results are one term.
-/
import proofs.«168599_j60601988547144_1_alg».proof.Proof.Gen.KernelIdeal.Frame
import proofs.«168599_j60601988547144_1_alg».proof.Proof.Gen.ReferenceIdeal.Read
import proofs.«168599_j60601988547144_1_alg».proof.Proof.Spec
import proofs.«168599_j60601988547144_1_alg».proof.Proof.RefStages
import proofs.«168599_j60601988547144_1_alg».proof.Proof.KernelArrays
import proofs.«168599_j60601988547144_1_alg».proof.Proof.HostValues
import Idealize.ShloMosaic.Lib.Pipeline.Value
import Idealize.ShloMosaic.Lib.ValueIdx
import Idealize.ShloMosaic.Lib.KernelVsHost

noncomputable section

open Idealize.ShloMosaic Idealize.ShloMosaic.TcCoe Idealize.SL.Sem Idealize.ShloMosaic.ValueIdx
open Idealize.ShloMosaic.Pipeline (Dat)

namespace Cert.Interaction.Kernel

open Cert.KernelIdeal Cert.KernelIdeal.Gen Cert.Interaction Cert.DenseLayer Cert.BiasLayer

variable (m : (ℓ : Loc nD τ sig) → Buf (Elt Ideal) ℓ)

/-- The weights the region finds are the arguments': the matrices untouched, the bias rows the bias vectors. -/
theorem Wk_eq (c : Dev nD) : Wk m c = Ref.W (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold Wk Weights.ofRows Ref.W
  rw [V_main_arg5 m c, V_main_arg7 m c, V_main_arg9 m c, V_main_arg11 m c, V_v22 m c, V_v23 m c, V_v24 m c, V_v25 m c]
  rw [rowOf_shapeCast, rowOf_shapeCast, rowOf_shapeCast, rowOf_shapeCast]

/-- Edge `e` of the edge list as an edge of the padded list. -/
def padEdge (e : Fin 400000) : Fin 400384 := ⟨e.val, by have := e.isLt; omega⟩

/-- Below the padding the padded radial features are the argument's. -/
theorem rbf_row (c : Dev nD) (e : Fin 400000) (k : Fin 20) :
    (V m c main_v18 : S400384x20.Idx → EReal) (ix2 (padEdge e) k)
      = ((m ((c : Thread nD τ).loc main_arg3)) : S400000x20.Idx → EReal) (ix2 e k) := by
  rw [V_v18]
  exact pad_apply_of_inside ![0, 0] ![384, 0] ![0, 0] _ _ pads_S400000x20_S400384x20_03840_000 h_S_
    (ix2 (padEdge e) k) (ix2 e k) (fun a => by
      match a with
      | ⟨0, _⟩ => show e.val = 0 + e.val * (0 + 1); omega
      | ⟨1, _⟩ => show k.val = 0 + k.val * (0 + 1); omega)

/-- Below the padding the padded source scalars are the gathered ones. -/
theorem ssrc_row (c : Dev nD) (e : Fin 400000) (k : Fin 128) :
    (V m c main_v19 : S400384x128.Idx → EReal) (ix2 (padEdge e) k)
      = Cert.ReferenceIdeal.Read.val_main_v19 (F := Ideal) (m ((c : Thread nD τ).loc main_arg0)) (m ((c : Thread nD τ).loc main_arg2)) (ix2 e k) := by
  rw [V_v19]
  exact pad_apply_of_inside ![0, 0] ![384, 0] ![0, 0] _ _ pads_S400000x128_S400384x128_03840_000 h_S_
    (ix2 (padEdge e) k) (ix2 e k) (fun a => by
      match a with
      | ⟨0, _⟩ => show e.val = 0 + e.val * (0 + 1); omega
      | ⟨1, _⟩ => show k.val = 0 + k.val * (0 + 1); omega)

/-- Below the padding the padded source vectors are the gathered ones. -/
theorem vsrc_row (c : Dev nD) (e : Fin 400000) (d : Fin 3) (k : Fin 128) :
    (V m c main_v20 : S400384x3x128.Idx → EReal) (ix3 (padEdge e) d k)
      = Cert.ReferenceIdeal.Read.val_main_v40 (F := Ideal) (m ((c : Thread nD τ).loc main_arg1)) (m ((c : Thread nD τ).loc main_arg2)) (ix3 e d k) := by
  rw [V_v20]
  exact pad_apply_of_inside ![0, 0, 0] ![384, 0, 0] ![0, 0, 0] _ _ pads_S400000x3x128_S400384x3x128_03840_000_000 h_S_
    (ix3 (padEdge e) d k) (ix3 e d k) (fun a => by
      match a with
      | ⟨0, _⟩ => show e.val = 0 + e.val * (0 + 1); omega
      | ⟨1, _⟩ => show d.val = 0 + d.val * (0 + 1); omega
      | ⟨2, _⟩ => show k.val = 0 + k.val * (0 + 1); omega)

/-- Below the padding the padded directions are the argument's. -/
theorem unit_row (c : Dev nD) (e : Fin 400000) (d : Fin 3) :
    (V m c main_v21 : S400384x3.Idx → EReal) (ix2 (padEdge e) d)
      = ((m ((c : Thread nD τ).loc main_arg4)) : S400000x3.Idx → EReal) (ix2 e d) := by
  rw [V_v21]
  exact pad_apply_of_inside ![0, 0] ![384, 0] ![0, 0] _ _ pads_S400000x3_S400384x3_03840_000 h_S_
    (ix2 (padEdge e) d) (ix2 e d) (fun a => by
      match a with
      | ⟨0, _⟩ => show e.val = 0 + e.val * (0 + 1); omega
      | ⟨1, _⟩ => show d.val = 0 + d.val * (0 + 1); omega)

/-- Keeping the first 400000 rows of a `[400384, 128]` array: row `e` is row `e`. -/
theorem keep_rows2 (X : S400384x128.Idx → EReal) (e : Fin 400000) (q : Fin 128) :
    extractStridedSlice S400000x128 ![0, 0] X slices_S400384x128_S400000x128_0_0 (ix2 e q) = X (ix2 (padEdge e) q) :=
  slice2_axis0_apply 0 X slices_S400384x128_S400000x128_0_0 e q (padEdge e) (Nat.zero_add _).symm

/-- Keeping the first 400000 rows of a `[400384, 3, 128]` array. -/
theorem keep_rows3 (X : S400384x3x128.Idx → EReal) (e : Fin 400000) (d : Fin 3) (q : Fin 128) :
    extractStridedSlice S400000x3x128 ![0, 0, 0] X slices_S400384x3x128_S400000x3x128_0_0_0 (ix3 e d q)
      = X (ix3 (padEdge e) d q) :=
  extractStridedSlice_apply ![0, 0, 0] X slices_S400384x3x128_S400000x3x128_0_0_0 (ix3 e d q) (ix3 (padEdge e) d q)
    (fun a => by
      match a with
      | ⟨0, _⟩ => exact (Nat.zero_add _).symm
      | ⟨1, _⟩ => exact (Nat.zero_add _).symm
      | ⟨2, _⟩ => exact (Nat.zero_add _).symm)

/-- The first 400000 rows of the region's first result are the reference's per-edge scalar updates. -/
theorem ds_rows (c : Dev nD) :
    extractStridedSlice S400000x128 ![0, 0] (G12 m c) slices_S400384x128_S400000x128_0_0
      = Cert.ReferenceIdeal.Read.val_main_v30 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [Ref.ds_eq]
  funext i
  obtain ⟨e, q, rfl⟩ : ∃ (e : Fin 400000) (q : Fin 128), i = ix2 e q := ⟨i 0, i 1, eq_ix2 i⟩
  rw [keep_rows2]
  unfold G12
  rw [Wk_eq]
  exact dsOf_congr (Ref.W (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (V m c main_v18) (V m c main_v19) (m ((c : Thread nD τ).loc main_arg3))
    (Cert.ReferenceIdeal.Read.val_main_v19 (F := Ideal) (m ((c : Thread nD τ).loc main_arg0)) (m ((c : Thread nD τ).loc main_arg2))) (padEdge e) e
    (fun k => rbf_row m c e k) (fun k => ssrc_row m c e k) q

/-- The first 400000 rows of the region's second result are the reference's per-edge vector updates. -/
theorem dv_rows (c : Dev nD) :
    extractStridedSlice S400000x3x128 ![0, 0, 0] (G13 m c) slices_S400384x3x128_S400000x3x128_0_0_0
      = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [Ref.dv_eq]
  funext i
  obtain ⟨e, d, q, rfl⟩ : ∃ (e : Fin 400000) (d : Fin 3) (q : Fin 128), i = ix3 e d q := ⟨i 0, i 1, i 2, eq_ix3 i⟩
  rw [keep_rows3]
  unfold G13
  rw [Wk_eq]
  exact dvOf_congr (Ref.W (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (V m c main_v18) (V m c main_v19) (V m c main_v20) (V m c main_v21) (m ((c : Thread nD τ).loc main_arg3))
    (Cert.ReferenceIdeal.Read.val_main_v19 (F := Ideal) (m ((c : Thread nD τ).loc main_arg0)) (m ((c : Thread nD τ).loc main_arg2)))
    (Cert.ReferenceIdeal.Read.val_main_v40 (F := Ideal) (m ((c : Thread nD τ).loc main_arg1)) (m ((c : Thread nD τ).loc main_arg2))) (m ((c : Thread nD τ).loc main_arg4)) (padEdge e) e
    (fun k => rbf_row m c e k) (fun k => ssrc_row m c e k) (fun d' k => vsrc_row m c e d' k) (fun d' => unit_row m c e d') d q

/-- The program's first result, as the reference's last stage of the arguments. -/
theorem result0 (c : Dev nD) :
    (Pipeline.afterTail₀ cfgs (dats m) 0 (V0 m) [hostOps1] c main_v35 : S16384x128.Idx → EReal)
      = Cert.ReferenceIdeal.Read.val_main_v55 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [tail35, final12, ds_rows, V_v3]
  rfl

/-- The program's second result, likewise. -/
theorem result1 (c : Dev nD) :
    (Pipeline.afterTail₀ cfgs (dats m) 0 (V0 m) [hostOps1] c main_v36 : S16384x3x128.Idx → EReal)
      = Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [tail36, final13, dv_rows, V_v3]
  rfl

end Cert.Interaction.Kernel

end
-- ==== Proof.lean ====
/-
  The interaction layer of an equivariant message-passing network: a tiled kernel against its plain reference, equal
  over the extended reals.

  For every edge of a graph the layer forms a message of 384 numbers, the entrywise product of two two-layer
  perceptrons with activation `z · σ(z)`: one of the edge's 20 radial features, one of the 128 scalar features of the
  edge's source node. The first third of the message updates the destination node's scalar features; the other two
  thirds weigh the source node's vector features and the edge's direction in the update of the destination's vector
  features. Updates are summed over the edges into their destination nodes and added to the node features.

  The kernel program gathers the source features, pads the 400000 edges to 782 blocks of 512, computes the per-edge
  updates block by block (rounding the operands of its matrix products to a narrower format, the identity at the
  ideal values, and holding each bias as a `[1, n]` row), drops the padding rows, and scatter-adds. The reference
  computes the same per-edge updates on the whole arrays. The specification (Spec) states the per-edge update entry
  by entry; the reference's stages are it (RefStages); the kernel body's stored blocks are it on a block (Payload),
  hence the region's results are it on the padded arrays (Blocks, KernelArrays), and the rows kept after the region
  are it on the unpadded arrays (HostValues, Bridge). No law of arithmetic beyond reading both programs entry by entry
  is used: the two programs apply the same operations to the same numbers, so the finiteness of the inputs is not
  needed.

  The three frames: the kernel programs' are the generated frame runs; the reference's is its generated run with the
  results dropped. The idealization rewrote no operation.
-/
import proofs.«168599_j60601988547144_1_alg».proof.Defs
import proofs.«168599_j60601988547144_1_alg».proof.Proof.Gen.Kernel
import proofs.«168599_j60601988547144_1_alg».proof.Proof.Gen.Kernel.Skeleton
import proofs.«168599_j60601988547144_1_alg».proof.Proof.Gen.Kernel.Launch
import proofs.«168599_j60601988547144_1_alg».proof.Proof.Gen.Kernel.Points
import proofs.«168599_j60601988547144_1_alg».proof.Proof.Gen.Kernel.Frame
import proofs.«168599_j60601988547144_1_alg».proof.Proof.Gen.KernelIdeal
import proofs.«168599_j60601988547144_1_alg».proof.Proof.Gen.KernelIdeal.Skeleton
import proofs.«168599_j60601988547144_1_alg».proof.Proof.Gen.KernelIdeal.Launch
import proofs.«168599_j60601988547144_1_alg».proof.Proof.Gen.KernelIdeal.Points
import proofs.«168599_j60601988547144_1_alg».proof.Proof.Gen.KernelIdeal.Frame
import proofs.«168599_j60601988547144_1_alg».proof.Proof.Gen.ReferenceIdeal
import proofs.«168599_j60601988547144_1_alg».proof.Proof.Gen.Pre_finite_inputs
import proofs.«168599_j60601988547144_1_alg».proof.Proof.Gen.ReferenceIdeal.Run
import proofs.«168599_j60601988547144_1_alg».proof.Proof.Gen.ReferenceIdeal.Read
import proofs.«168599_j60601988547144_1_alg».proof.Proof.Bridge
import Idealize.ShloMosaic.Adequacy
import Idealize.ShloMosaic.Init

noncomputable section

open Idealize.ShloMosaic Idealize.ShloMosaic.TcCoe Idealize.SL.Sem

namespace Cert.Interaction.Kernel

open Cert.KernelIdeal Cert.KernelIdeal.Gen

/-- The idealized kernel program's run, read: both results at the reference's last stages of the arguments, the
    arguments unchanged. The results are the lines after the region applied to the region's results (`result0`,
    `result1`); an argument is either untouched by every line and no window's array, or a weight window's array,
    which the region only reads. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v35) = Cert.ReferenceIdeal.Read.val_main_v55 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
      ∧ r.2.mem ((c.tc : Thread nD τ).loc main_v36) = Cert.ReferenceIdeal.Read.val_main_v56 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨((h c).2 main_v35 (Pipeline.mem_restRefs_of main_v35 (by decide) (by decide))).trans (result0 m c),
      ((h c).2 main_v36 (Pipeline.mem_restRefs_of main_v36 (by decide) (by decide))).trans (result1 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c))),
      ((h c).2 main_arg6 (Pipeline.mem_restRefs_of main_arg6 (by decide) (by decide))).trans (W_main_arg6 m (dats m) c),
      ((h c).1 6).trans (((dats m 0 c).arrAt_in 6 rfl _).trans ((A_eq m c 6).trans (V_main_arg7 m c))),
      ((h c).2 main_arg8 (Pipeline.mem_restRefs_of main_arg8 (by decide) (by decide))).trans (W_main_arg8 m (dats m) c),
      ((h c).1 8).trans (((dats m 0 c).arrAt_in 8 rfl _).trans ((A_eq m c 8).trans (V_main_arg9 m c))),
      ((h c).2 main_arg10 (Pipeline.mem_restRefs_of main_arg10 (by decide) (by decide))).trans (W_main_arg10 m (dats m) c),
      ((h c).1 10).trans (((dats m 0 c).arrAt_in 10 rfl _).trans ((A_eq m c 10).trans (V_main_arg11 m c))),
      ((h c).2 main_arg12 (Pipeline.mem_restRefs_of main_arg12 (by decide) (by decide))).trans (W_main_arg12 m (dats m) c)⟩)
    (run_main m ρ)

end Cert.Interaction.Kernel

namespace Cert.Proof

/-- The two idealized programs, from memories that agree on the arguments, end with equal results: the kernel's run
    ends at the reference's last stages of its own arguments, the reference's generated run at the same stages of the
    reference's arguments, which are the kernel's. -/
theorem algebraic : Cert.algebraic_KernelIdeal_ReferenceIdeal := by
  intro m ρ m' ρ' _ hagree
  refine ⟨_, _, Cert.Interaction.Kernel.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12⟩ := hagree c
  refine ⟨(h c).1.trans ?_, (h c).2.1.trans ?_, (h c).2.2⟩
  · rw [Cert.ReferenceIdeal.Read.val_main_v55_eq, a0, a2, a3, a5, a6, a7, a8, a9, a10, a11, a12]
  · rw [Cert.ReferenceIdeal.Read.val_main_v56_eq, a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2.2)
      (Cert.ReferenceIdeal.Value.run (F := Ideal) m ρ),
    trivial,
    algebraic⟩

end Cert.Proof

end
